-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v59) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_v81) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S128x1 : Shape := ⟨2, ![128, 1]⟩
abbrev S128x8192x1 : Shape := ⟨3, ![128, 8192, 1]⟩
abbrev S128x128000x1 : Shape := ⟨3, ![128, 128000, 1]⟩
abbrev S_ : Shape := ⟨0, ![]⟩

class Facts : Prop where
  bcast_S_S128x8192x1 : S_.BroadcastsInDim S128x8192x1 (![] : Fin 0 → Fin S128x8192x1.rank)
  reducesTo_S128x8192x1_S_d0_1_2 : S128x8192x1.ReducesTo [0, 1, 2] S_
  h_S_ : 0 < S_.numel
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn {F : FTy → Type} [FloatOps F] (main_arg0 : IVec S128 32) (main_arg1 : IVec S128x1 32) (main_arg2 : FVec F S128x8192x1 .f32) (main_arg3 : IVec S128x8192x1 32) (main_arg4 : IVec S128x8192x1 32) (main_arg5 : IVec S128x1 32) (main_arg6 : IVec S128x128000x1 32) : IVec S_ 1 :=
  let main_v0 : FVec F S128x8192x1 .f32 := Host.absf main_arg2
  let main_cst : FVec F S_ .f32 := constant S_ .f32 0x7F800000#32
  let main_v1 : FVec F S128x8192x1 .f32 := broadcastInDim S128x8192x1 ![] bcast_S_S128x8192x1 main_cst
  let main_v2 : IVec S128x8192x1 1 := cmpf .olt main_v0 main_v1
  let main_c : IVec S_ 1 := constantI S_ 1 1#1
  let main_v3 : IVec S_ 1 := (fun x v => Host.reduce IntOp.andi x v reducesTo_S128x8192x1_S_d0_1_2 h_S_) main_v2 main_c
  let main_c_0 : IVec S_ 32 := constantI S_ 32 0#32
  let main_v4 : IVec S128 32 := broadcastInDim S128 ![] bcast_S_S128 main_c_0
  let main_v5 : IVec S128 1 := cmpi .sge main_arg0 main_v4
  let main_c_1 : IVec S_ 1 := constantI S_ 1 1#1
  let main_v6 : IVec S_ 1 := (fun x v => Host.reduce IntOp.andi x v reducesTo_S128_S_d0 h_S_) main_v5 main_c_1
  let main_v7 : IVec S_ 1 := andi main_v3 main_v6
  let main_c_2 : IVec S_ 32 := constantI S_ 32 0#32
  let main_v8 : IVec S128x1 32 := broadcastInDim S128x1 ![] bcast_S_S128x1 main_c_2
  let main_v9 : IVec S128x1 1 := cmpi .sge main_arg1 main_v8
  let main_c_3 : IVec S_ 1 := constantI S_ 1 1#1
  let main_v10 : IVec S_ 1 := (fun x v => Host.reduce IntOp.andi x v reducesTo_S128x1_S_d0_1 h_S_) main_v9 main_c_3
  let main_v11 : IVec S_ 1 := andi main_v7 main_v10
  let main_c_4 : IVec S_ 32 := constantI S_ 32 0#32
  let main_v12 : IVec S128x1 32 := broadcastInDim S128x1 ![] bcast_S_S128x1 main_c_4
  let main_v13 : IVec S128x1 1 := cmpi .sge main_arg5 main_v12
  let main_c_5 : IVec S_ 1 := constantI S_ 1 1#1
  let main_v14 : IVec S_ 1 := (fun x v => Host.reduce IntOp.andi x v reducesTo_S128x1_S_d0_1 h_S_) main_v13 main_c_5
  let main_v15 : IVec S_ 1 := andi main_v11 main_v14
  main_v15
-- ==== Kernel.lean ====
abbrev S128 : Shape := ⟨1, ![128]⟩
abbrev S128x1 : Shape := ⟨2, ![128, 1]⟩
abbrev S128x8192x1 : Shape := ⟨3, ![128, 8192, 1]⟩
abbrev S128x128000x1 : Shape := ⟨3, ![128, 128000, 1]⟩
abbrev S_ : Shape := ⟨0, ![]⟩
abbrev S128x8192 : Shape := ⟨2, ![128, 8192]⟩
abbrev S128x128000 : Shape := ⟨2, ![128, 128000]⟩
abbrev S128x2048 : Shape := ⟨2, ![128, 2048]⟩
abbrev S128x12800 : Shape := ⟨2, ![128, 12800]⟩

abbrev nBuf : Space → Nat
  | .hbm => 32
  | .vmem => 20
  | .smem => 0
  | _ => 0

abbrev bufTy : (tb : Table) → Fin (tcTables nBuf tb) → BufTy
  | .hbm, ⟨0, _⟩ => ⟨S128, .i32⟩
  | .hbm, ⟨1, _⟩ => ⟨S128x1, .i32⟩
  | .hbm, ⟨2, _⟩ => ⟨S128x8192x1, .f32⟩
  | .hbm, ⟨3, _⟩ => ⟨S128x8192x1, .i32⟩
  | .hbm, ⟨4, _⟩ => ⟨S128x8192x1, .i32⟩
  | .hbm, ⟨5, _⟩ => ⟨S128x1, .i32⟩
  | .hbm, ⟨6, _⟩ => ⟨S128x128000x1, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S_, .i32⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x1, .i32⟩
  | .hbm, ⟨20, _⟩ => ⟨S128x8192, .f32⟩
  | .hbm, ⟨21, _⟩ => ⟨S128x8192, .i32⟩
  | .hbm, ⟨22, _⟩ => ⟨S128x8192, .i32⟩
  | .hbm, ⟨23, _⟩ => ⟨S128x128000, .i32⟩
  | .hbm, ⟨24, _⟩ => ⟨S128x8192, .f32⟩
  | .hbm, ⟨25, _⟩ => ⟨S128x8192, .i32⟩
  | .hbm, ⟨26, _⟩ => ⟨S128x8192, .i32⟩
  | .hbm, ⟨27, _⟩ => ⟨S128x128000, .i32⟩
  | .hbm, ⟨28, _⟩ => ⟨S128x8192x1, .f32⟩
  | .hbm, ⟨29, _⟩ => ⟨S128x8192x1, .i32⟩
  | .hbm, ⟨30, _⟩ => ⟨S128x8192x1, .i32⟩
  | .hbm, ⟨31, _⟩ => ⟨S128x128000x1, .i32⟩
  | .local _ .vmem, ⟨0, _⟩ => ⟨S128x1, .i32⟩
  | .local _ .vmem, ⟨1, _⟩ => ⟨S128x1, .i32⟩
  | .local _ .vmem, ⟨2, _⟩ => ⟨S128x1, .i32⟩
  | .local _ .vmem, ⟨3, _⟩ => ⟨S128x2048, .f32⟩
  | .local _ .vmem, ⟨4, _⟩ => ⟨S128x2048, .f32⟩
  | .local _ .vmem, ⟨5, _⟩ => ⟨S128x2048, .i32⟩
  | .local _ .vmem, ⟨6, _⟩ => ⟨S128x2048, .i32⟩
  | .local _ .vmem, ⟨7, _⟩ => ⟨S128x2048, .i32⟩
  | .local _ .vmem, ⟨8, _⟩ => ⟨S128x2048, .i32⟩
  | .local _ .vmem, ⟨9, _⟩ => ⟨S128x2048, .f32⟩
  | .local _ .vmem, ⟨10, _⟩ => ⟨S128x2048, .f32⟩
  | .local _ .vmem, ⟨11, _⟩ => ⟨S128x2048, .i32⟩
  | .local _ .vmem, ⟨12, _⟩ => ⟨S128x2048, .i32⟩
  | .local _ .vmem, ⟨13, _⟩ => ⟨S128x2048, .i32⟩
  | .local _ .vmem, ⟨14, _⟩ => ⟨S128x2048, .i32⟩
  | .local _ .vmem, ⟨15, _⟩ => ⟨S128x1, .i32⟩
  | .local _ .vmem, ⟨16, _⟩ => ⟨S128x12800, .i32⟩
  | .local _ .vmem, ⟨17, _⟩ => ⟨S128x12800, .i32⟩
  | .local _ .vmem, ⟨18, _⟩ => ⟨S128x12800, .i32⟩
  | .local _ .vmem, ⟨19, _⟩ => ⟨S128x12800, .i32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x12800 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x12800 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S128x1 : S_.BroadcastsInDim S128x1 (![] : Fin 0 → Fin S128x1.rank)
  shapeCasts_S128_S128x1 : S128.ShapeCasts S128x1
  shapeCasts_S128x8192x1_S128x8192 : S128x8192x1.ShapeCasts S128x8192
  shapeCasts_S128x128000x1_S128x128000 : S128x128000x1.ShapeCasts S128x128000
  iota_S128x2048_d1_w32 : S128x2048.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  iota_S128x12800_d1_w32 : S128x12800.Iotas .tc 32 [1]
  broadcasts_S128x1_S128x12800 : S128x1.Broadcasts S128x12800
  natLt_1_32 : 1 < 32
  inb_S128x12800_S128x12800_0_0 : ∀ a, (![0, 0] : Fin 2 → Nat) a + S128x12800.size a ≤ S128x12800.size a
  h_S128x12800 : 0 < S128x12800.numel
  shapeCasts_S128x12800_S128x12800 : S128x12800.ShapeCasts S128x12800
  shapeCasts_S128x8192_S128x8192x1 : S128x8192.ShapeCasts S128x8192x1
  shapeCasts_S128x128000_S128x128000x1 : S128x128000.ShapeCasts S128x128000x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S128x1.size a
  hwx0_0 : ∀ i : grid0.Coords, EltTy.bits .i32 = 32 ∨ (Rect.block (s := S128x1) S128x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .i32 = 32 ∨ (Rect.block (s := S128x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .i32 = 32 ∨ (Rect.block (s := S128x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x8192.size a
  hwx0_3 : ∀ i : grid0.Coords, EltTy.bits .f32 = 32 ∨ (Rect.block (s := S128x8192) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x8192.size a
  hwx0_4 : ∀ i : grid0.Coords, EltTy.bits .i32 = 32 ∨ (Rect.block (s := S128x8192) S128x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x8192.size a
  hwx0_5 : ∀ i : grid0.Coords, EltTy.bits .i32 = 32 ∨ (Rect.block (s := S128x8192) S128x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S128x8192.size a
  hwx0_6 : ∀ i : grid0.Coords, EltTy.bits .f32 = 32 ∨ (Rect.block (s := S128x8192) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S128x8192.size a
  hwx0_7 : ∀ i : grid0.Coords, EltTy.bits .i32 = 32 ∨ (Rect.block (s := S128x8192) S128x2048.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S128x8192.size a
  hwx0_8 : ∀ i : grid0.Coords, EltTy.bits .i32 = 32 ∨ (Rect.block (s := S128x8192) S128x2048.size (cc0_transform_8 i) (hinb0_8 i)).WholeWords (EltTy.packing .i32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S128x1.size a
  hwx1_0 : ∀ i : grid1.Coords, EltTy.bits .i32 = 32 ∨ (Rect.block (s := S128x1) S128x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x12800.size a ≤ S128x128000.size a
  hwx1_1 : ∀ i : grid1.Coords, EltTy.bits .i32 = 32 ∨ (Rect.block (s := S128x128000) S128x12800.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x12800.size a ≤ S128x128000.size a
  hwx1_2 : ∀ i : grid1.Coords, EltTy.bits .i32 = 32 ∨ (Rect.block (s := S128x128000) S128x12800.size (cc1_transform_2 i) (hinb1_2 i)).WholeWords (EltTy.packing .i32)

variable [Facts₀]

abbrev win0_0 : Pipeline.Window sig grid0 :=
  Pipeline.Window.ofSpec (Memref.whole main_v3) S128x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_0) S128x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_1) S128x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_2) S128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v8) S128x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S128x12800.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x12800.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S128 : Shape := ⟨1, ![128]⟩
abbrev S128x1 : Shape := ⟨2, ![128, 1]⟩
abbrev S128x8192x1 : Shape := ⟨3, ![128, 8192, 1]⟩
abbrev S128x128000x1 : Shape := ⟨3, ![128, 128000, 1]⟩
abbrev S_ : Shape := ⟨0, ![]⟩
abbrev S128x3 : Shape := ⟨2, ![128, 3]⟩

abbrev nBuf : Space → Nat
  | .hbm => 115
  | .vmem => 0
  | .smem => 0
  | _ => 0

abbrev bufTy : (tb : Table) → Fin (tcTables nBuf tb) → BufTy
  | .hbm, ⟨0, _⟩ => ⟨S128, .i32⟩
  | .hbm, ⟨1, _⟩ => ⟨S128x1, .i32⟩
  | .hbm, ⟨2, _⟩ => ⟨S128x8192x1, .f32⟩
  | .hbm, ⟨3, _⟩ => ⟨S128x8192x1, .i32⟩
  | .hbm, ⟨4, _⟩ => ⟨S128x8192x1, .i32⟩
  | .hbm, ⟨5, _⟩ => ⟨S128x1, .i32⟩
  | .hbm, ⟨6, _⟩ => ⟨S128x128000x1, .i32⟩
  | .hbm, ⟨7, _⟩ => ⟨S128, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128, .i32⟩
  | .hbm, ⟨15, _⟩ => ⟨S_, .f32⟩
  | .hbm, ⟨16, _⟩ => ⟨S128, .f32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S_, .i32⟩
  | .hbm, ⟨25, _⟩ => ⟨S128, .i32⟩
  | .hbm, ⟨26, _⟩ => ⟨S128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128x1, .i32⟩
  | .hbm, ⟨35, _⟩ => ⟨S128x1, .i32⟩
  | .hbm, ⟨36, _⟩ => ⟨S128x1, .i32⟩
  | .hbm, ⟨37, _⟩ => ⟨S128x3, .i32⟩
  | .hbm, ⟨38, _⟩ => ⟨S128x8192x1, .f32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i32⟩
  | .hbm, ⟨57, _⟩ => ⟨S128x1, .i32⟩
  | .hbm, ⟨58, _⟩ => ⟨S128x1, .i32⟩
  | .hbm, ⟨59, _⟩ => ⟨S128x1, .i32⟩
  | .hbm, ⟨60, _⟩ => ⟨S128x3, .i32⟩
  | .hbm, ⟨61, _⟩ => ⟨S128x8192x1, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S_, .i32⟩
  | .hbm, ⟨67, _⟩ => ⟨S128, .i32⟩
  | .hbm, ⟨68, _⟩ => ⟨S128, .i32⟩
  | .hbm, ⟨69, _⟩ => ⟨S128, .i32⟩
  | .hbm, ⟨70, _⟩ => ⟨S_, .i32⟩
  | .hbm, ⟨71, _⟩ => ⟨S128, .i32⟩
  | .hbm, ⟨72, _⟩ => ⟨S128, .i1⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S128, .i32⟩
  | .hbm, ⟨77, _⟩ => ⟨S_, .i32⟩
  | .hbm, ⟨78, _⟩ => ⟨S128, .i32⟩
  | .hbm, ⟨79, _⟩ => ⟨S128, .i32⟩
  | .hbm, ⟨80, _⟩ => ⟨S128x1, .i32⟩
  | .hbm, ⟨81, _⟩ => ⟨S128x1, .i32⟩
  | .hbm, ⟨82, _⟩ => ⟨S128x1, .i32⟩
  | .hbm, ⟨83, _⟩ => ⟨S128x3, .i32⟩
  | .hbm, ⟨84, _⟩ => ⟨S128x8192x1, .i32⟩
  | .hbm, ⟨85, _⟩ => ⟨S_, .i32⟩
  | .hbm, ⟨86, _⟩ => ⟨S128x1, .i32⟩
  | .hbm, ⟨87, _⟩ => ⟨S128x1, .i32⟩
  | .hbm, ⟨88, _⟩ => ⟨S_, .i32⟩
  | .hbm, ⟨89, _⟩ => ⟨S128x1, .i32⟩
  | .hbm, ⟨90, _⟩ => ⟨S128x1, .i32⟩
  | .hbm, ⟨91, _⟩ => ⟨S_, .i32⟩
  | .hbm, ⟨92, _⟩ => ⟨S128, .i32⟩
  | .hbm, ⟨93, _⟩ => ⟨S_, .i32⟩
  | .hbm, ⟨94, _⟩ => ⟨S128, .i32⟩
  | .hbm, ⟨95, _⟩ => ⟨S128, .i1⟩
  | .hbm, ⟨96, _⟩ => ⟨S_, .i32⟩
  | .hbm, ⟨97, _⟩ => ⟨S128, .i32⟩
  | .hbm, ⟨98, _⟩ => ⟨S128, .i32⟩
  | .hbm, ⟨99, _⟩ => ⟨S128, .i32⟩
  | .hbm, ⟨100, _⟩ => ⟨S_, .i32⟩
  | .hbm, ⟨101, _⟩ => ⟨S128, .i32⟩
  | .hbm, ⟨102, _⟩ => ⟨S128, .i1⟩
  | .hbm, ⟨103, _⟩ => ⟨S_, .i32⟩
  | .hbm, ⟨104, _⟩ => ⟨S128, .i32⟩
  | .hbm, ⟨105, _⟩ => ⟨S128, .i32⟩
  | .hbm, ⟨106, _⟩ => ⟨S128, .i32⟩
  | .hbm, ⟨107, _⟩ => ⟨S_, .i32⟩
  | .hbm, ⟨108, _⟩ => ⟨S128, .i32⟩
  | .hbm, ⟨109, _⟩ => ⟨S128, .i32⟩
  | .hbm, ⟨110, _⟩ => ⟨S128x1, .i32⟩
  | .hbm, ⟨111, _⟩ => ⟨S128x1, .i32⟩
  | .hbm, ⟨112, _⟩ => ⟨S128x1, .i32⟩
  | .hbm, ⟨113, _⟩ => ⟨S128x3, .i32⟩
  | .hbm, ⟨114, _⟩ => ⟨S128x128000x1, .i32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_13 : Ref sig .tc := ⟨.hbm, 70, rfl⟩
abbrev main_v48 : Ref sig .tc := ⟨.hbm, 71, rfl⟩
abbrev main_v49 : Ref sig .tc := ⟨.hbm, 72, rfl⟩
abbrev main_c_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_16 : Ref sig .tc := ⟨.hbm, 85, rfl⟩
abbrev main_v60 : Ref sig .tc := ⟨.hbm, 86, rfl⟩
abbrev main_v61 : Ref sig .tc := ⟨.hbm, 87, rfl⟩
abbrev main_c_17 : Ref sig .tc := ⟨.hbm, 88, rfl⟩
abbrev main_v62 : Ref sig .tc := ⟨.hbm, 89, rfl⟩
abbrev main_v63 : Ref sig .tc := ⟨.hbm, 90, rfl⟩
abbrev main_c_18 : Ref sig .tc := ⟨.hbm, 91, rfl⟩
abbrev main_v64 : Ref sig .tc := ⟨.hbm, 92, rfl⟩
abbrev main_c_19 : Ref sig .tc := ⟨.hbm, 93, rfl⟩
abbrev main_v65 : Ref sig .tc := ⟨.hbm, 94, rfl⟩
abbrev main_v66 : Ref sig .tc := ⟨.hbm, 95, rfl⟩
abbrev main_c_20 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_21 : Ref sig .tc := ⟨.hbm, 100, rfl⟩
abbrev main_v70 : Ref sig .tc := ⟨.hbm, 101, rfl⟩
abbrev main_v71 : Ref sig .tc := ⟨.hbm, 102, rfl⟩
abbrev main_c_22 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_23 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  bcast_S_S128x1 : S_.BroadcastsInDim S128x1 (![] : Fin 0 → Fin S128x1.rank)
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  concatenates_S128x1_S128x1_S128x1_S128x3_d1 : Shape.Concatenates [S128x1, S128x1, S128x1] S128x3 1
  scatter_S128x8192x1_S128x3_S128_n_012_012_1_wf : ScatterDims.WF S128x8192x1 S128x3 S128 [] [0, 1, 2] [0, 1, 2] 1
  scatter_S128x128000x1_S128x3_S128_n_012_012_1_wf : ScatterDims.WF S128x128000x1 S128x3 S128 [] [0, 1, 2] [0, 1, 2] 1

variable [Facts₀]

def scatter_S128x8192x1_S128x3_S128_n_012_012_1 : ScatterDims S128x8192x1 S128x3 S128 where
  updateWindowDims := []
  insertedWindowDims := [0, 1, 2]
  scatterDimsToOperandDims := [0, 1, 2]
  indexVectorDim := 1
  wf := scatter_S128x8192x1_S128x3_S128_n_012_012_1_wf
def scatter_S128x128000x1_S128x3_S128_n_012_012_1 : ScatterDims S128x128000x1 S128x3 S128 where
  updateWindowDims := []
  insertedWindowDims := [0, 1, 2]
  scatterDimsToOperandDims := [0, 1, 2]
  indexVectorDim := 1
  wf := scatter_S128x128000x1_S128x3_S128_n_012_012_1_wf

class Facts : Prop extends Facts₀ where

variable [Facts]
-- ==== Proof.KerPay.lean ====
/-
  What each store of the two kernel bodies holds, element by element.

  Both bodies number the columns of their block: lane `q` of grid point `i` is column `q + i · (block width)` of the
  whole row, as a 32-bit word. The first body writes, in row `p`, the constant one (resp. the row's token) where that
  column number IS the row's index word and the loaded element elsewhere; the second adds to the loaded count the
  one-bit answer of the same comparison, widened to 32 bits. No float arithmetic is involved, so every statement holds
  at any float family.
-/
import proofs.«426699_j13640816132357_1_alg».proof.Proof.Gen.KernelIdeal.Skeleton
import Idealize.ShloMosaic.Lib.ValueIdx
import Idealize.ShloMosaic.Lib.Pipeline.Value
import Idealize.ShloMosaic.Lib.Affine

noncomputable section

namespace Cert.KernelIdeal.KVal

open Idealize.ShloMosaic Idealize.ShloMosaic.ValueIdx Cert.KernelIdeal Cert.KernelIdeal.Gen

variable {F : FTy → Type} [FloatOps F]

/-- A select on the one-bit answer of an equality test is the `if` on the equality. -/
theorem select_cmpi_eq {α : Type} (a b : BitVec 32) (u v : α) :
    Scalar.select (IntOp.cmpi .eq a b) u v = if a = b then u else v := by
  unfold Scalar.select
  by_cases h : a = b
  · rw [if_pos h]; exact if_pos (IntOp.cmpi_eq.2 h)
  · rw [if_neg h]; exact if_neg (fun e => h (IntOp.cmpi_eq.1 e))

/-- A [128, 1] column of words broadcast along 2048 lanes reads its row's word. -/
theorem col_bcast2048 (x : IVec S128x1 32) (p : Fin 128) (q : Fin 2048) :
    broadcastTo S128x2048 x broadcasts_S128x1_S128x2048 (ix2 p q) = x (ix2 p 0) := by
  refine broadcastTo_apply x _ (ix2 p q) (ix2 p 0) (fun a => ?_)
  match a with
  | ⟨0, _⟩ => rfl
  | ⟨1, _⟩ => rfl

/-- A [128, 1] column of words broadcast along 12800 lanes reads its row's word. -/
theorem col_bcast12800 (x : IVec S128x1 32) (p : Fin 128) (q : Fin 12800) :
    broadcastTo S128x12800 x broadcasts_S128x1_S128x12800 (ix2 p q) = x (ix2 p 0) := by
  refine broadcastTo_apply x _ (ix2 p q) (ix2 p 0) (fun a => ?_)
  match a with
  | ⟨0, _⟩ => rfl
  | ⟨1, _⟩ => rfl

/-- The column number the first body compares: the lane plus 2048 times the grid point. -/
theorem pay1_apply (i : grid0.Coords) (p : Fin 128) (q : Fin 2048) :
    k0_pay1 i (ix2 p q) = BitVec.ofNat 32 q.val + BitVec.ofNat 32 (i 0).val * 2048#32 := by
  unfold k0_pay1
  show IntOp.addi (iota .tc S128x2048 32 [1] iota_S128x2048_d1_w32 (ix2 p q)) (Scalar.muli (BitVec.ofNat 32 (i 0).val) 2048#32) = _
  rw [iota_single_apply]
  rfl

/-- The first store: one where the column number is the row's index word, the loaded element elsewhere. -/
theorem pay3_apply (i : grid0.Coords) (x0 : Vec F S128x1 .i32) (x3 : Vec F S128x2048 .f32) (p : Fin 128) (q : Fin 2048) :
    k0_pay3 i x0 x3 (ix2 p q)
      = if BitVec.ofNat 32 q.val + BitVec.ofNat 32 (i 0).val * 2048#32 = x0 (ix2 p 0)
        then (Scalar.ofBits .f32 0x3F800000#32 : F .f32) else x3 (ix2 p q) := by
  unfold k0_pay3
  show Scalar.select (IntOp.cmpi .eq (k0_pay1 i (ix2 p q))
      (broadcastTo S128x2048 (shapeCast S128x1 x0 shapeCasts_S128x1_S128x1) broadcasts_S128x1_S128x2048 (ix2 p q)))
      (Scalar.ofBits .f32 0x3F800000#32 : F .f32) (shapeCast S128x2048 x3 shapeCasts_S128x2048_S128x2048 (ix2 p q)) = _
  rw [shapeCast_self, shapeCast_self, col_bcast2048, pay1_apply, select_cmpi_eq]

/-- The second and third stores: the row's token where the column number is the row's index word, the loaded element elsewhere. -/
theorem pay5_apply (i : grid0.Coords) (x1 x2 : Vec F S128x1 .i32) (x4 : Vec F S128x2048 .i32) (p : Fin 128) (q : Fin 2048) :
    k0_pay5 i x1 x2 x4 (ix2 p q)
      = if BitVec.ofNat 32 q.val + BitVec.ofNat 32 (i 0).val * 2048#32 = x1 (ix2 p 0) then x2 (ix2 p 0) else x4 (ix2 p q) := by
  unfold k0_pay5 k0_pay4 k0_pay2
  show Scalar.select (IntOp.cmpi .eq (k0_pay1 i (ix2 p q)) (broadcastTo S128x2048 x1 broadcasts_S128x1_S128x2048 (ix2 p q)))
      (broadcastTo S128x2048 (shapeCast S128x1 (shapeCast S128x1 x2 shapeCasts_S128x1_S128x1) shapeCasts_S128x1_S128x1) broadcasts_S128x1_S128x2048 (ix2 p q))
      (shapeCast S128x2048 x4 shapeCasts_S128x2048_S128x2048 (ix2 p q)) = _
  rw [shapeCast_self, shapeCast_self, shapeCast_self, col_bcast2048, col_bcast2048, pay1_apply, select_cmpi_eq]

theorem pay6_apply (i : grid0.Coords) (x1 x2 : Vec F S128x1 .i32) (x5 : Vec F S128x2048 .i32) (p : Fin 128) (q : Fin 2048) :
    k0_pay6 i x1 x2 x5 (ix2 p q)
      = if BitVec.ofNat 32 q.val + BitVec.ofNat 32 (i 0).val * 2048#32 = x1 (ix2 p 0) then x2 (ix2 p 0) else x5 (ix2 p q) := by
  unfold k0_pay6 k0_pay4 k0_pay2
  show Scalar.select (IntOp.cmpi .eq (k0_pay1 i (ix2 p q)) (broadcastTo S128x2048 x1 broadcasts_S128x1_S128x2048 (ix2 p q)))
      (broadcastTo S128x2048 (shapeCast S128x1 (shapeCast S128x1 x2 shapeCasts_S128x1_S128x1) shapeCasts_S128x1_S128x1) broadcasts_S128x1_S128x2048 (ix2 p q))
      (shapeCast S128x2048 x5 shapeCasts_S128x2048_S128x2048 (ix2 p q)) = _
  rw [shapeCast_self, shapeCast_self, shapeCast_self, col_bcast2048, col_bcast2048, pay1_apply, select_cmpi_eq]

/-- The histogram body's store: the loaded count plus one where the column number is the row's token, plus zero elsewhere. -/
theorem kpay1_apply (i : grid1.Coords) (x0 : Vec F S128x1 .i32) (x1 : Vec F S128x12800 .i32) (p : Fin 128) (q : Fin 12800) :
    k1_pay1 i x0 x1 (ix2 p q)
      = if BitVec.ofNat 32 q.val + BitVec.ofNat 32 (i 0).val * 12800#32 = x0 (ix2 p 0) then x1 (ix2 p q) + 1#32 else x1 (ix2 p q) := by
  unfold k1_pay1
  show IntOp.addi (shapeCast S128x12800 x1 shapeCasts_S128x12800_S128x12800 (ix2 p q))
      ((IntOp.cmpi .eq (IntOp.addi (iota .tc S128x12800 32 [1] iota_S128x12800_d1_w32 (ix2 p q)) (Scalar.muli (BitVec.ofNat 32 (i 0).val) 12800#32))
        (broadcastTo S128x12800 (shapeCast S128x1 x0 shapeCasts_S128x1_S128x1) broadcasts_S128x1_S128x12800 (ix2 p q))).setWidth 32) = _
  rw [shapeCast_self, shapeCast_self, col_bcast12800, iota_single_apply]
  show x1 (ix2 p q) + (IntOp.cmpi .eq (BitVec.ofNat 32 q.val + BitVec.ofNat 32 (i 0).val * 12800#32) (x0 (ix2 p 0))).setWidth 32 = _
  by_cases h : BitVec.ofNat 32 q.val + BitVec.ofNat 32 (i 0).val * 12800#32 = x0 (ix2 p 0)
  · rw [if_pos h, IntOp.cmpi_eq.2 h]; rfl
  · rw [if_neg h]
    have h0 : IntOp.cmpi .eq (BitVec.ofNat 32 q.val + BitVec.ofNat 32 (i 0).val * 12800#32) (x0 (ix2 p 0)) = 0#1 := by
      have := fun e => h (IntOp.cmpi_eq.1 e)
      generalize IntOp.cmpi .eq _ _ = b at this ⊢
      revert this; revert b; decide
    rw [h0]
    show x1 (ix2 p q) + 0#32 = _
    rw [BitVec.add_zero]

end Cert.KernelIdeal.KVal

end
-- ==== Proof.KerBlocks0.lean ====
/-
  The first region's three output arrays after its four grid points, as whole-array functions of what the region
  finds in its operand arrays.

  Grid point `t` handles columns `2048·t … 2048·t + 2047` of every row. Its lane `q` carries the column number
  `q + 2048·t` as a 32-bit word, which is the word of the array column `2048·t + q` (no wrap: the columns stay below
  8192). So what point `t` writes back is block `t` of ONE function of the whole arrays — in row `p`, the new value
  where the column's word equals the row's index word, the old element elsewhere — and the four blocks tile the array.
-/
import proofs.«426699_j13640816132357_1_alg».proof.Proof.FrameKernelIdeal
import proofs.«426699_j13640816132357_1_alg».proof.Proof.KerPay

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat Cfg Window)

variable {F : FTy → Type} [FloatOps F]

/-- The whole-array value of the mask output: one at the column whose word is the row's index word. -/
abbrev G6 (k : S128x1.Idx → BitVec 32) (a : S128x8192.Idx → Elt F .f32) : S128x8192.Idx → Elt F .f32 :=
  fun i => if BitVec.ofNat 32 (i 1).val = k (ix2 ⟨(i 0).val, (i 0).isLt⟩ (0 : Fin 1))
    then (Scalar.ofBits .f32 0x3F800000#32 : F .f32) else a i

/-- The whole-array value of a token buffer: the row's token at the column whose word is the row's index word. -/
abbrev G7 (k v : S128x1.Idx → BitVec 32) (a : S128x8192.Idx → BitVec 32) : S128x8192.Idx → BitVec 32 :=
  fun i => if BitVec.ofNat 32 (i 1).val = k (ix2 ⟨(i 0).val, (i 0).isLt⟩ (0 : Fin 1))
    then v (ix2 ⟨(i 0).val, (i 0).isLt⟩ (0 : Fin 1)) else a i

theorem hz : (![0, 0] : Fin 2 → Nat) = fun _ => 0 := funext fun a => by fin_cases a <;> rfl

/-- Lane `q` of grid point `n` carries the word of column `2048·n + q`. -/
theorem lane_word (n q : ℕ) :
    BitVec.ofNat 32 q + BitVec.ofNat 32 n * 2048#32 = BitVec.ofNat 32 (n * 2048 + q) := by
  rw [show (2048#32 : BitVec 32) = BitVec.ofNat 32 2048 from rfl, ← BitVec.ofNat_mul, ← BitVec.ofNat_add, Nat.add_comm]

/-- One element of the mask block at a point, against the whole-array function at the array index it lands on. -/
theorem pt6 (k : S128x1.Idx → BitVec 32) (a : S128x8192.Idx → Elt F .f32) (i : grid0.Coords) (n : ℕ) (hi : (i 0).val = n)
    (x0 : Vec F S128x1 .i32) (x3 : Vec F S128x2048 .f32) (y : S128x2048.Idx) (e : S128x8192.Idx)
    (h0 : ∀ p : Fin 128, x0 (ix2 p (0 : Fin 1)) = k (ix2 p (0 : Fin 1)))
    (he0 : (e 0).val = (y 0).val) (he1 : (e 1).val = n * 2048 + (y 1).val) (h3 : x3 y = a e) :
    k0_pay3 i x0 x3 y = G6 k a e := by
  obtain ⟨p, q, rfl⟩ : ∃ (p : Fin 128) (q : Fin 2048), y = ix2 p q := ⟨y 0, y 1, eq_ix2 y⟩
  rw [pay3_apply, h0, h3, hi, lane_word]
  have hp : (⟨(e 0).val, (e 0).isLt⟩ : Fin 128) = p := Fin.ext he0
  show _ = if BitVec.ofNat 32 (e 1).val = k (ix2 ⟨(e 0).val, (e 0).isLt⟩ (0 : Fin 1)) then _ else _
  rw [hp, he1]

/-- One element of a token block at a point, against the whole-array function at the array index it lands on. -/
theorem pt7 (k v : S128x1.Idx → BitVec 32) (a : S128x8192.Idx → BitVec 32) (i : grid0.Coords) (n : ℕ) (hi : (i 0).val = n)
    (x1 x2 : Vec F S128x1 .i32) (x4 : Vec F S128x2048 .i32) (y : S128x2048.Idx) (e : S128x8192.Idx)
    (h1 : ∀ p : Fin 128, x1 (ix2 p (0 : Fin 1)) = k (ix2 p (0 : Fin 1)))
    (h2 : ∀ p : Fin 128, x2 (ix2 p (0 : Fin 1)) = v (ix2 p (0 : Fin 1)))
    (he0 : (e 0).val = (y 0).val) (he1 : (e 1).val = n * 2048 + (y 1).val) (h4 : x4 y = a e) :
    k0_pay5 i x1 x2 x4 y = G7 k v a e := by
  obtain ⟨p, q, rfl⟩ : ∃ (p : Fin 128) (q : Fin 2048), y = ix2 p q := ⟨y 0, y 1, eq_ix2 y⟩
  rw [pay5_apply, h1, h2, h4, hi, lane_word]
  have hp : (⟨(e 0).val, (e 0).isLt⟩ : Fin 128) = p := Fin.ext he0
  show _ = if BitVec.ofNat 32 (e 1).val = k (ix2 ⟨(e 0).val, (e 0).isLt⟩ (0 : Fin 1)) then v (ix2 ⟨(e 0).val, (e 0).isLt⟩ (0 : Fin 1)) else _
  rw [hp, he1]

theorem pt8 (k v : S128x1.Idx → BitVec 32) (a : S128x8192.Idx → BitVec 32) (i : grid0.Coords) (n : ℕ) (hi : (i 0).val = n)
    (x1 x2 : Vec F S128x1 .i32) (x5 : Vec F S128x2048 .i32) (y : S128x2048.Idx) (e : S128x8192.Idx)
    (h1 : ∀ p : Fin 128, x1 (ix2 p (0 : Fin 1)) = k (ix2 p (0 : Fin 1)))
    (h2 : ∀ p : Fin 128, x2 (ix2 p (0 : Fin 1)) = v (ix2 p (0 : Fin 1)))
    (he0 : (e 0).val = (y 0).val) (he1 : (e 1).val = n * 2048 + (y 1).val) (h5 : x5 y = a e) :
    k0_pay6 i x1 x2 x5 y = G7 k v a e := by
  obtain ⟨p, q, rfl⟩ : ∃ (p : Fin 128) (q : Fin 2048), y = ix2 p q := ⟨y 0, y 1, eq_ix2 y⟩
  rw [pay6_apply, h1, h2, h5, hi, lane_word]
  have hp : (⟨(e 0).val, (e 0).isLt⟩ : Fin 128) = p := Fin.ext he0
  show _ = if BitVec.ofNat 32 (e 1).val = k (ix2 ⟨(e 0).val, (e 0).isLt⟩ (0 : Fin 1)) then v (ix2 ⟨(e 0).val, (e 0).isLt⟩ (0 : Fin 1)) else _
  rw [hp, he1]

/-- The printed index maps over the four grid points: the grid coordinate is the point; the three index columns
    are fetched whole; every [128, 2048] window sits at block (0, t). -/
theorem idx_facts0 : ∀ t : Fin cfg0.N, ((grid0.coords t) 0).val = t.val
    ∧ win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

variable (V : (c : Dev nD) → (b : Ref sig .tc) → Buf (Elt F) ((c : Thread nD τ).loc b))

/-- What point `t` writes back to the mask output is block `t` of `G6` of the arrays as the region finds them. -/
theorem flushed6_eq (c : Dev nD) (t : Fin cfg0.N) :
    (dat0 V c).flushed 6 t = ((cfg0.win 6).blk t).view.read (Elt F) (G6 (V c main_v3) (V c main_v9)) := by
  show (cfg0.win 6).cut (grid0.coords t) ((dat0 V c).after 6 t) = _
  rw [after0_6]
  unfold out0_6
  rw [View.canon_unit_zero hz]
  simp only [View.ld_unit_zero (S := S128x1) hz, View.ld_unit_zero (S := S128x2048) hz]
  obtain ⟨ei, e00, e01, e10, e11, e20, e21, e30, e31, e40, e41, e50, e51, e60, e61, e70, e71, e80, e81⟩ := idx_facts0 t
  funext j
  show k0_pay3 (grid0.coords t) (iblk0 V c 0 t) (iblk0 V c 3 t) j = G6 (V c main_v3) (V c main_v9) (((cfg0.win 6).blk t).view.emb j)
  refine pt6 (V c main_v3) (V c main_v9) (grid0.coords t) t.val ei (iblk0 V c 0 t) (iblk0 V c 3 t) j (((cfg0.win 6).blk t).view.emb j) ?_ ?_ ?_ ?_
  · intro p
    show V c main_v3 (((cfg0.win 0).blk t).view.emb (ix2 p (0 : Fin 1))) = V c main_v3 (ix2 p (0 : Fin 1))
    congr 1; funext a; apply Fin.ext
    match a with
    | ⟨0, _⟩ => show win0_0.index t (0 : Fin 2) * 128 + 1 * p.val = p.val; omega
    | ⟨1, _⟩ => show win0_0.index t (1 : Fin 2) * 1 + 1 * 0 = 0; omega
  · show win0_6.index t (0 : Fin 2) * 128 + 1 * (j 0).val = (j 0).val; omega
  · show win0_6.index t (1 : Fin 2) * 2048 + 1 * (j 1).val = t.val * 2048 + (j 1).val; omega
  · show V c main_v9 (((cfg0.win 3).blk t).view.emb j) = V c main_v9 (((cfg0.win 6).blk t).view.emb j)
    rfl

theorem flushed7_eq (c : Dev nD) (t : Fin cfg0.N) :
    (dat0 V c).flushed 7 t = ((cfg0.win 7).blk t).view.read (Elt F) (G7 (V c main_arg5) (V c main_v8) (V c main_v10)) := by
  show (cfg0.win 7).cut (grid0.coords t) ((dat0 V c).after 7 t) = _
  rw [after0_7]
  unfold out0_7
  rw [View.canon_unit_zero hz]
  simp only [View.ld_unit_zero (S := S128x1) hz, View.ld_unit_zero (S := S128x2048) hz]
  obtain ⟨ei, e00, e01, e10, e11, e20, e21, e30, e31, e40, e41, e50, e51, e60, e61, e70, e71, e80, e81⟩ := idx_facts0 t
  funext j
  show k0_pay5 (grid0.coords t) (iblk0 V c 1 t) (iblk0 V c 2 t) (iblk0 V c 4 t) j = G7 (V c main_arg5) (V c main_v8) (V c main_v10) (((cfg0.win 7).blk t).view.emb j)
  refine pt7 (V c main_arg5) (V c main_v8) (V c main_v10) (grid0.coords t) t.val ei (iblk0 V c 1 t) (iblk0 V c 2 t) (iblk0 V c 4 t) j (((cfg0.win 7).blk t).view.emb j) ?_ ?_ ?_ ?_ ?_
  · intro p
    show V c main_arg5 (((cfg0.win 1).blk t).view.emb (ix2 p (0 : Fin 1))) = V c main_arg5 (ix2 p (0 : Fin 1))
    congr 1; funext a; apply Fin.ext
    match a with
    | ⟨0, _⟩ => show win0_1.index t (0 : Fin 2) * 128 + 1 * p.val = p.val; omega
    | ⟨1, _⟩ => show win0_1.index t (1 : Fin 2) * 1 + 1 * 0 = 0; omega
  · intro p
    show V c main_v8 (((cfg0.win 2).blk t).view.emb (ix2 p (0 : Fin 1))) = V c main_v8 (ix2 p (0 : Fin 1))
    congr 1; funext a; apply Fin.ext
    match a with
    | ⟨0, _⟩ => show win0_2.index t (0 : Fin 2) * 128 + 1 * p.val = p.val; omega
    | ⟨1, _⟩ => show win0_2.index t (1 : Fin 2) * 1 + 1 * 0 = 0; omega
  · show win0_7.index t (0 : Fin 2) * 128 + 1 * (j 0).val = (j 0).val; omega
  · show win0_7.index t (1 : Fin 2) * 2048 + 1 * (j 1).val = t.val * 2048 + (j 1).val; omega
  · show V c main_v10 (((cfg0.win 4).blk t).view.emb j) = V c main_v10 (((cfg0.win 7).blk t).view.emb j)
    rfl

theorem flushed8_eq (c : Dev nD) (t : Fin cfg0.N) :
    (dat0 V c).flushed 8 t = ((cfg0.win 8).blk t).view.read (Elt F) (G7 (V c main_arg5) (V c main_v8) (V c main_v11)) := by
  show (cfg0.win 8).cut (grid0.coords t) ((dat0 V c).after 8 t) = _
  rw [after0_8]
  unfold out0_8
  rw [View.canon_unit_zero hz]
  simp only [View.ld_unit_zero (S := S128x1) hz, View.ld_unit_zero (S := S128x2048) hz]
  obtain ⟨ei, e00, e01, e10, e11, e20, e21, e30, e31, e40, e41, e50, e51, e60, e61, e70, e71, e80, e81⟩ := idx_facts0 t
  funext j
  show k0_pay6 (grid0.coords t) (iblk0 V c 1 t) (iblk0 V c 2 t) (iblk0 V c 5 t) j = G7 (V c main_arg5) (V c main_v8) (V c main_v11) (((cfg0.win 8).blk t).view.emb j)
  refine pt8 (V c main_arg5) (V c main_v8) (V c main_v11) (grid0.coords t) t.val ei (iblk0 V c 1 t) (iblk0 V c 2 t) (iblk0 V c 5 t) j (((cfg0.win 8).blk t).view.emb j) ?_ ?_ ?_ ?_ ?_
  · intro p
    show V c main_arg5 (((cfg0.win 1).blk t).view.emb (ix2 p (0 : Fin 1))) = V c main_arg5 (ix2 p (0 : Fin 1))
    congr 1; funext a; apply Fin.ext
    match a with
    | ⟨0, _⟩ => show win0_1.index t (0 : Fin 2) * 128 + 1 * p.val = p.val; omega
    | ⟨1, _⟩ => show win0_1.index t (1 : Fin 2) * 1 + 1 * 0 = 0; omega
  · intro p
    show V c main_v8 (((cfg0.win 2).blk t).view.emb (ix2 p (0 : Fin 1))) = V c main_v8 (ix2 p (0 : Fin 1))
    congr 1; funext a; apply Fin.ext
    match a with
    | ⟨0, _⟩ => show win0_2.index t (0 : Fin 2) * 128 + 1 * p.val = p.val; omega
    | ⟨1, _⟩ => show win0_2.index t (1 : Fin 2) * 1 + 1 * 0 = 0; omega
  · show win0_8.index t (0 : Fin 2) * 128 + 1 * (j 0).val = (j 0).val; omega
  · show win0_8.index t (1 : Fin 2) * 2048 + 1 * (j 1).val = t.val * 2048 + (j 1).val; omega
  · show V c main_v11 (((cfg0.win 5).blk t).view.emb j) = V c main_v11 (((cfg0.win 8).blk t).view.emb j)
    rfl

/-! ## The four blocks tile each output array -/

/-- An index of a [128, 8192] output is in point `t`'s block iff its coordinates are in the block's ranges. -/
theorem mem_blk6 (t : Fin cfg0.N) (i : S128x8192.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v13_0).slice (win0_6.rect t)).set ↔ _
  rw [View.set_slice_whole, Rect.mem_set_unit]
  exact Iff.rfl
theorem mem_blk7 (t : Fin cfg0.N) (i : S128x8192.Idx) :
    i ∈ ((cfg0.win 7).blk t).view.set ↔ ∀ a : Fin 2, win0_7.index t a * S128x2048.size a ≤ (i a).val ∧ (i a).val < win0_7.index t a * S128x2048.size a + S128x2048.size a := by
  show i ∈ ((View.whole main_v13_1).slice (win0_7.rect t)).set ↔ _
  rw [View.set_slice_whole, Rect.mem_set_unit]
  exact Iff.rfl
theorem mem_blk8 (t : Fin cfg0.N) (i : S128x8192.Idx) :
    i ∈ ((cfg0.win 8).blk t).view.set ↔ ∀ a : Fin 2, win0_8.index t a * S128x2048.size a ≤ (i a).val ∧ (i a).val < win0_8.index t a * S128x2048.size a + S128x2048.size a := by
  show i ∈ ((View.whole main_v13_2).slice (win0_8.rect t)).set ↔ _
  rw [View.set_slice_whole, Rect.mem_set_unit]
  exact Iff.rfl

/-- Column `c` lies in the block of point `c / 2048`. -/
theorem cover6 (i : S128x8192.Idx) : ∃ t : Fin cfg0.N, (cfg0.win 6).flush t = true ∧ i ∈ ((cfg0.win 6).blk t).view.set := by
  have hi0 : (i 0).val < 128 := (i 0).isLt
  have hi1 : (i 1).val < 8192 := (i 1).isLt
  let t : Fin cfg0.N := ⟨(i 1).val / 2048, by rw [show cfg0.N = 4 from N_0]; omega⟩
  obtain ⟨ei, e00, e01, e10, e11, e20, e21, e30, e31, e40, e41, e50, e51, e60, e61, e70, e71, e80, e81⟩ := idx_facts0 t
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ =>
    show win0_6.index t (1 : Fin 2) * 2048 ≤ (i 1).val ∧ (i 1).val < win0_6.index t (1 : Fin 2) * 2048 + 2048
    rw [e61]; show (i 1).val / 2048 * 2048 ≤ (i 1).val ∧ (i 1).val < (i 1).val / 2048 * 2048 + 2048; omega
theorem cover7 (i : S128x8192.Idx) : ∃ t : Fin cfg0.N, (cfg0.win 7).flush t = true ∧ i ∈ ((cfg0.win 7).blk t).view.set := by
  have hi0 : (i 0).val < 128 := (i 0).isLt
  have hi1 : (i 1).val < 8192 := (i 1).isLt
  let t : Fin cfg0.N := ⟨(i 1).val / 2048, by rw [show cfg0.N = 4 from N_0]; omega⟩
  obtain ⟨ei, e00, e01, e10, e11, e20, e21, e30, e31, e40, e41, e50, e51, e60, e61, e70, e71, e80, e81⟩ := idx_facts0 t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ =>
    show win0_7.index t (1 : Fin 2) * 2048 ≤ (i 1).val ∧ (i 1).val < win0_7.index t (1 : Fin 2) * 2048 + 2048
    rw [e71]; show (i 1).val / 2048 * 2048 ≤ (i 1).val ∧ (i 1).val < (i 1).val / 2048 * 2048 + 2048; omega
theorem cover8 (i : S128x8192.Idx) : ∃ t : Fin cfg0.N, (cfg0.win 8).flush t = true ∧ i ∈ ((cfg0.win 8).blk t).view.set := by
  have hi0 : (i 0).val < 128 := (i 0).isLt
  have hi1 : (i 1).val < 8192 := (i 1).isLt
  let t : Fin cfg0.N := ⟨(i 1).val / 2048, by rw [show cfg0.N = 4 from N_0]; omega⟩
  obtain ⟨ei, e00, e01, e10, e11, e20, e21, e30, e31, e40, e41, e50, e51, e60, e61, e70, e71, e80, e81⟩ := idx_facts0 t
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ =>
    show win0_8.index t (1 : Fin 2) * 2048 ≤ (i 1).val ∧ (i 1).val < win0_8.index t (1 : Fin 2) * 2048 + 2048
    rw [e81]; show (i 1).val / 2048 * 2048 ≤ (i 1).val ∧ (i 1).val < (i 1).val / 2048 * 2048 + 2048; omega

/-- The three output arrays after the region, whole. -/
theorem final6 (c : Dev nD) : (dat0 V c).arrAt 6 cfg0.N = G6 (V c main_v3) (V c main_v9) :=
  (dat0 V c).arrAt_eq_of_cover 6 _ (fun t _ => flushed6_eq V c t) cover6
theorem final7 (c : Dev nD) : (dat0 V c).arrAt 7 cfg0.N = G7 (V c main_arg5) (V c main_v8) (V c main_v10) :=
  (dat0 V c).arrAt_eq_of_cover 7 _ (fun t _ => flushed7_eq V c t) cover7
theorem final8 (c : Dev nD) : (dat0 V c).arrAt 8 cfg0.N = G7 (V c main_arg5) (V c main_v8) (V c main_v11) :=
  (dat0 V c).arrAt_eq_of_cover 8 _ (fun t _ => flushed8_eq V c t) cover8

end Cert.KernelIdeal.KVal

end
-- ==== Proof.KerBlocks1.lean ====
/-
  The second region's output array after its ten grid points, as a whole-array function of what the region finds.

  Grid point `t` handles columns `12800·t … 12800·t + 12799` of every row of the count table; lane `q` carries the word
  of column `12800·t + q` (below 128000: no wrap). What the point writes back is block `t` of ONE function of the whole
  table — in row `p`, the old count plus one where the column's word equals the row's token, the old count elsewhere —
  and the ten blocks tile the table.
-/
import proofs.«426699_j13640816132357_1_alg».proof.Proof.FrameKernelIdeal
import proofs.«426699_j13640816132357_1_alg».proof.Proof.KerPay

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat Cfg Window)

variable {F : FTy → Type} [FloatOps F]

/-- The whole-array value of the count table: one more at the column whose word is the row's token. -/
abbrev H2 (k : S128x1.Idx → BitVec 32) (a : S128x128000.Idx → BitVec 32) : S128x128000.Idx → BitVec 32 :=
  fun i => if BitVec.ofNat 32 (i 1).val = k (ix2 ⟨(i 0).val, (i 0).isLt⟩ (0 : Fin 1)) then a i + 1#32 else a i

theorem hz1 : (![0, 0] : Fin 2 → Nat) = fun _ => 0 := funext fun a => by fin_cases a <;> rfl

/-- Lane `q` of grid point `n` carries the word of column `12800·n + q`. -/
theorem lane_word1 (n q : ℕ) :
    BitVec.ofNat 32 q + BitVec.ofNat 32 n * 12800#32 = BitVec.ofNat 32 (n * 12800 + q) := by
  rw [show (12800#32 : BitVec 32) = BitVec.ofNat 32 12800 from rfl, ← BitVec.ofNat_mul, ← BitVec.ofNat_add, Nat.add_comm]

/-- One element of the count block at a point, against the whole-array function at the array index it lands on. -/
theorem ptH (k : S128x1.Idx → BitVec 32) (a : S128x128000.Idx → BitVec 32) (i : grid1.Coords) (n : ℕ) (hi : (i 0).val = n)
    (x0 : Vec F S128x1 .i32) (x1 : Vec F S128x12800 .i32) (y : S128x12800.Idx) (e : S128x128000.Idx)
    (h0 : ∀ p : Fin 128, x0 (ix2 p (0 : Fin 1)) = k (ix2 p (0 : Fin 1)))
    (he0 : (e 0).val = (y 0).val) (he1 : (e 1).val = n * 12800 + (y 1).val) (h1 : x1 y = a e) :
    k1_pay1 i x0 x1 y = H2 k a e := by
  obtain ⟨p, q, rfl⟩ : ∃ (p : Fin 128) (q : Fin 12800), y = ix2 p q := ⟨y 0, y 1, eq_ix2 y⟩
  rw [kpay1_apply, h0, h1, hi, lane_word1]
  have hp : (⟨(e 0).val, (e 0).isLt⟩ : Fin 128) = p := Fin.ext he0
  show _ = if BitVec.ofNat 32 (e 1).val = k (ix2 ⟨(e 0).val, (e 0).isLt⟩ (0 : Fin 1)) then _ else _
  rw [hp, he1]

/-- The printed index maps over the ten grid points: the grid coordinate is the point; the token column is fetched
    whole; both [128, 12800] windows sit at block (0, t). -/
theorem idx_facts1 : ∀ t : Fin cfg1.N, ((grid1.coords t) 0).val = t.val
    ∧ win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

variable (V : (c : Dev nD) → (b : Ref sig .tc) → Buf (Elt F) ((c : Thread nD τ).loc b))

/-- What point `t` writes back is block `t` of `H2` of the arrays as the region finds them. -/
theorem flushedH_eq (c : Dev nD) (t : Fin cfg1.N) :
    (dat1 V c).flushed 2 t = ((cfg1.win 2).blk t).view.read (Elt F) (H2 (V c main_v8) (V c main_v12)) := by
  show (cfg1.win 2).cut (grid1.coords t) ((dat1 V c).after 2 t) = _
  rw [after1_2]
  unfold out1_2
  rw [View.canon_unit_zero hz1]
  simp only [View.ld_unit_zero (S := S128x1) hz1, View.ld_unit_zero (S := S128x12800) hz1]
  obtain ⟨ei, e00, e01, e10, e11, e20, e21⟩ := idx_facts1 t
  funext j
  show k1_pay1 (grid1.coords t) (iblk1 V c 0 t) (iblk1 V c 1 t) j = H2 (V c main_v8) (V c main_v12) (((cfg1.win 2).blk t).view.emb j)
  refine ptH (V c main_v8) (V c main_v12) (grid1.coords t) t.val ei (iblk1 V c 0 t) (iblk1 V c 1 t) j (((cfg1.win 2).blk t).view.emb j) ?_ ?_ ?_ ?_
  · intro p
    show V c main_v8 (((cfg1.win 0).blk t).view.emb (ix2 p (0 : Fin 1))) = V c main_v8 (ix2 p (0 : Fin 1))
    congr 1; funext a; apply Fin.ext
    match a with
    | ⟨0, _⟩ => show win1_0.index t (0 : Fin 2) * 128 + 1 * p.val = p.val; omega
    | ⟨1, _⟩ => show win1_0.index t (1 : Fin 2) * 1 + 1 * 0 = 0; omega
  · show win1_2.index t (0 : Fin 2) * 128 + 1 * (j 0).val = (j 0).val; omega
  · show win1_2.index t (1 : Fin 2) * 12800 + 1 * (j 1).val = t.val * 12800 + (j 1).val; omega
  · show V c main_v12 (((cfg1.win 1).blk t).view.emb j) = V c main_v12 (((cfg1.win 2).blk t).view.emb j)
    rfl

/-- An index of the table is in point `t`'s block iff its coordinates are in the block's ranges. -/
theorem mem_blkH (t : Fin cfg1.N) (i : S128x128000.Idx) :
    i ∈ ((cfg1.win 2).blk t).view.set ↔ ∀ a : Fin 2, win1_2.index t a * S128x12800.size a ≤ (i a).val ∧ (i a).val < win1_2.index t a * S128x12800.size a + S128x12800.size a := by
  show i ∈ ((View.whole main_v14).slice (win1_2.rect t)).set ↔ _
  rw [View.set_slice_whole, Rect.mem_set_unit]
  exact Iff.rfl

/-- Column `c` lies in the block of point `c / 12800`. -/
theorem coverH (i : S128x128000.Idx) : ∃ t : Fin cfg1.N, (cfg1.win 2).flush t = true ∧ i ∈ ((cfg1.win 2).blk t).view.set := by
  have hi0 : (i 0).val < 128 := (i 0).isLt
  have hi1 : (i 1).val < 128000 := (i 1).isLt
  let t : Fin cfg1.N := ⟨(i 1).val / 12800, by rw [show cfg1.N = 10 from N_1]; omega⟩
  obtain ⟨ei, e00, e01, e10, e11, e20, e21⟩ := idx_facts1 t
  refine ⟨t, flush1_2 t, ?_⟩
  rw [mem_blkH]
  intro a
  match a with
  | ⟨0, _⟩ => show win1_2.index t (0 : Fin 2) * 128 ≤ (i 0).val ∧ (i 0).val < win1_2.index t (0 : Fin 2) * 128 + 128; omega
  | ⟨1, _⟩ =>
    show win1_2.index t (1 : Fin 2) * 12800 ≤ (i 1).val ∧ (i 1).val < win1_2.index t (1 : Fin 2) * 12800 + 12800
    rw [e21]; show (i 1).val / 12800 * 12800 ≤ (i 1).val ∧ (i 1).val < (i 1).val / 12800 * 12800 + 12800; omega

/-- The count table after the region, whole. -/
theorem finalH (c : Dev nD) : (dat1 V c).arrAt 2 cfg1.N = H2 (V c main_v8) (V c main_v12) :=
  (dat1 V c).arrAt_eq_of_cover 2 _ (fun t _ => flushedH_eq V c t) coverH

end Cert.KernelIdeal.KVal

end
-- ==== Proof.Spec.lean ====
/-
  What the decode step computes, array by array, as functions of its seven inputs (sizes 128 rows, 8192 positions,
  128000 vocabulary entries; every array carries a trailing unit axis).

  * `adv x`: each index word advanced by one and capped at 8191 (signed minimum).
  * `maskOut k a one`: the mask `a` with, in row `b`, the position whose 32-bit word is the row's index word `k b`
    set to `one`. A word that is no position's (negative, or 8192 and more) marks nothing.
  * `tokOut k v a`: the same with the row's token `v b` written instead.
  * `cntOut v a`: the count table with, in row `b`, the entry whose word is the row's token increased by one.
-/
import Idealize.ShloMosaic.PureOps.Vector
import Idealize.ShloMosaic.Lib.ValueIdx

namespace Cert.Spec

open Idealize.ShloMosaic Idealize.ShloMosaic.ValueIdx

abbrev SB : Shape := ⟨1, ![128]⟩
abbrev SB1 : Shape := ⟨2, ![128, 1]⟩
abbrev SS : Shape := ⟨3, ![128, 8192, 1]⟩
abbrev SV : Shape := ⟨3, ![128, 128000, 1]⟩

/-- Every index word advanced by one and capped at 8191. -/
def adv (x : IVec SB1 32) : IVec SB1 32 := fun i => IntOp.minsi (IntOp.addi (x i) 1#32) 8191#32

/-- Row `b`'s position whose word is `k (b, 0)` set to `one`; everything else as in `a`. -/
def maskOut {α : Type} (k : IVec SB1 32) (a : SS.Idx → α) (one : α) : SS.Idx → α :=
  fun i => if BitVec.ofNat 32 (i 1).val = k (ix2 ⟨(i 0).val, (i 0).isLt⟩ (0 : Fin 1)) then one else a i

/-- Row `b`'s position whose word is `k (b, 0)` set to the row's token `v b`; everything else as in `a`. -/
def tokOut (k : IVec SB1 32) (v : IVec SB 32) (a : IVec SS 32) : IVec SS 32 :=
  fun i => if BitVec.ofNat 32 (i 1).val = k (ix2 ⟨(i 0).val, (i 0).isLt⟩ (0 : Fin 1)) then v (ix1 ⟨(i 0).val, (i 0).isLt⟩) else a i

/-- Row `b`'s entry whose word is the row's token `v b` increased by one; everything else as in `a`. -/
def cntOut (v : IVec SB 32) (a : IVec SV 32) : IVec SV 32 :=
  fun i => if BitVec.ofNat 32 (i 1).val = v (ix1 ⟨(i 0).val, (i 0).isLt⟩) then a i + 1#32 else a i

end Cert.Spec
-- ==== Proof.LibTrailingUnit.lean ====
/-
  Shape casts that add or drop a TRAILING unit axis, read at an index (any sizes, any element type): an `[a, b]` array
  viewed `[a, b, 1]` and back, and an `[a]` array viewed `[a, 1]` and back. Row-major positions agree because the unit
  axis contributes a factor one and a coordinate zero.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An index of `[a, b, 1]` by its coordinates: the last is zero. -/
theorem eq_ix3_unit {a b : ℕ} (j : (⟨3, ![a, b, 1]⟩ : Shape).Idx) : j = ix3 (j 0) (j 1) (0 : Fin 1) := by
  funext d
  match d with
  | ⟨0, _⟩ => rfl
  | ⟨1, _⟩ => rfl
  | ⟨2, hd⟩ =>
    have h : (j ⟨2, hd⟩).val < 1 := (j ⟨2, hd⟩).isLt
    exact Fin.ext (show (j ⟨2, hd⟩).val = 0 by omega)

/-- An index of `[a, 1]` by its coordinates: the last is zero. -/
theorem eq_ix2_unit {a : ℕ} (j : (⟨2, ![a, 1]⟩ : Shape).Idx) : j = ix2 (j 0) (0 : Fin 1) := by
  funext d
  match d with
  | ⟨0, _⟩ => rfl
  | ⟨1, hd⟩ =>
    have h : (j ⟨1, hd⟩).val < 1 := (j ⟨1, hd⟩).isLt
    exact Fin.ext (show (j ⟨1, hd⟩).val = 0 by omega)

end Idealize.ShloMosaic.TrailingUnit
-- ==== Proof.KerFinal.lean ====
/-
  The kernel program's seven results after its run, as the specification's functions of the seven inputs.

  The run's last boundary holds: the two advanced index columns, computed by the host operations before the regions;
  the three [128, 8192, 1] arrays, each the reshape of a first-region output, which is the whole-array function of
  KerBlocks0 at what the region found — the advanced index column, the raw index column, the token column (the token
  vector viewed as a column) and the inputs viewed [128, 8192]; and the count table, the reshape of the second
  region's output, the function of KerBlocks1 at the token column (unchanged by the first region, which only reads it)
  and the input table viewed [128, 128000]. Viewing an array with and without its trailing unit axis changes no element.
-/
import proofs.«426699_j13640816132357_1_alg».proof.Proof.FrameKernelIdeal
import proofs.«426699_j13640816132357_1_alg».proof.Proof.KerBlocks0
import proofs.«426699_j13640816132357_1_alg».proof.Proof.KerBlocks1
import proofs.«426699_j13640816132357_1_alg».proof.Proof.Spec
import proofs.«426699_j13640816132357_1_alg».proof.Proof.LibTrailingUnit
import Idealize.ShloMosaic.Lib.StableHlo.Run

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.GenP
open Idealize.ShloMosaic.Pipeline (Dat Cfg Window)

variable {F : FTy → Type} [FloatOps F]

open Idealize.ShloMosaic.StableHlo Idealize.ShloMosaic.TrailingUnit

/-! ## Reshapes and the whole-array functions, element by element -/

/-- The mask function of the viewed arrays, viewed back, is the specification's. -/
theorem mask_view (k : S128x1.Idx → BitVec 32) (a : S128x8192x1.Idx → Elt F .f32)
    (h1 : S128x8192x1.ShapeCasts S128x8192) (h2 : S128x8192.ShapeCasts S128x8192x1) :
    shapeCast S128x8192x1 (G6 (F := F) k (shapeCast S128x8192 a h1)) h2
      = Spec.maskOut k a (Scalar.ofBits .f32 0x3F800000#32 : F .f32) := by
  funext i
  obtain ⟨p, q, rfl⟩ : ∃ (p : Fin 128) (q : Fin 8192), i = ix3 p q (0 : Fin 1) := ⟨i 0, i 1, eq_ix3_unit i⟩
  rw [shapeCast_ab_ab1_apply]
  show (if BitVec.ofNat 32 q.val = k (ix2 p (0 : Fin 1)) then (Scalar.ofBits .f32 0x3F800000#32 : F .f32) else shapeCast S128x8192 a h1 (ix2 p q)) = _
  rw [shapeCast_ab1_ab_apply]
  rfl

/-- The token function of the viewed arrays, viewed back, is the specification's. -/
theorem tok_view (k : S128x1.Idx → BitVec 32) (v : S128.Idx → BitVec 32) (a : S128x8192x1.Idx → BitVec 32)
    (h0 : S128.ShapeCasts S128x1) (h1 : S128x8192x1.ShapeCasts S128x8192) (h2 : S128x8192.ShapeCasts S128x8192x1) :
    shapeCast S128x8192x1 (G7 k (shapeCast S128x1 v h0) (shapeCast S128x8192 a h1)) h2 = Spec.tokOut k v a := by
  funext i
  obtain ⟨p, q, rfl⟩ : ∃ (p : Fin 128) (q : Fin 8192), i = ix3 p q (0 : Fin 1) := ⟨i 0, i 1, eq_ix3_unit i⟩
  rw [shapeCast_ab_ab1_apply]
  show (if BitVec.ofNat 32 q.val = k (ix2 p (0 : Fin 1)) then shapeCast S128x1 v h0 (ix2 p (0 : Fin 1)) else shapeCast S128x8192 a h1 (ix2 p q)) = _
  rw [shapeCast_ab1_ab_apply, shapeCast_a_a1_apply]
  rfl

/-- The count function of the viewed arrays, viewed back, is the specification's. -/
theorem cnt_view (v : S128.Idx → BitVec 32) (a : S128x128000x1.Idx → BitVec 32)
    (h0 : S128.ShapeCasts S128x1) (h1 : S128x128000x1.ShapeCasts S128x128000) (h2 : S128x128000.ShapeCasts S128x128000x1) :
    shapeCast S128x128000x1 (H2 (shapeCast S128x1 v h0) (shapeCast S128x128000 a h1)) h2 = Spec.cntOut v a := by
  funext i
  obtain ⟨p, q, rfl⟩ : ∃ (p : Fin 128) (q : Fin 128000), i = ix3 p q (0 : Fin 1) := ⟨i 0, i 1, eq_ix3_unit i⟩
  rw [shapeCast_ab_ab1_apply]
  show (if BitVec.ofNat 32 q.val = shapeCast S128x1 v h0 (ix2 p (0 : Fin 1)) then shapeCast S128x128000 a h1 (ix2 p q) + 1#32 else shapeCast S128x128000 a h1 (ix2 p q)) = _
  rw [shapeCast_ab1_ab_apply, shapeCast_a_a1_apply]
  rfl

/-! ## An input window's array is left as found -/

theorem noflush0_0 : ∀ t : Fin cfg0.N, (cfg0.win 0).flush t = false := (by decide +kernel : ∀ t : Fin grid0.N, win0_0.flush t = false)
theorem noflush0_2 : ∀ t : Fin cfg0.N, (cfg0.win 2).flush t = false := (by decide +kernel : ∀ t : Fin grid0.N, win0_2.flush t = false)

section Kept
variable (V : (c : Dev nD) → (b : Ref sig .tc) → Buf (Elt F) ((c : Thread nD τ).loc b))

theorem arr0_0 (c : Dev nD) : (dat0 V c).arrAt 0 cfg0.N = V c main_v3 :=
  funext fun i => (dat0 V c).arrAt_apply_of_forall_not_mem 0 cfg0.N i
    (fun t _ hf => absurd hf (by rw [noflush0_0 t]; decide))
theorem arr0_2 (c : Dev nD) : (dat0 V c).arrAt 2 cfg0.N = V c main_v8 :=
  funext fun i => (dat0 V c).arrAt_apply_of_forall_not_mem 2 cfg0.N i
    (fun t _ hf => absurd hf (by rw [noflush0_2 t]; decide))

end Kept

variable (m : (ℓ : Loc nD τ sig) → Buf (Elt F) ℓ) (ρ : Dev nD → PrngReg)

/-! ## What the first region finds -/

theorem V1_v3 (c : Dev nD) : V1 m ρ c main_v3 = Spec.adv (m ((c : Thread nD τ).loc main_arg1)) := by
  show StableHlo.after hostOps0 (W0 m ρ c) (Proc.devRef .tc main_v3) = _
  after_results
  rfl
theorem V1_v7 (c : Dev nD) : V1 m ρ c main_v7 = Spec.adv (m ((c : Thread nD τ).loc main_arg5)) := by
  show StableHlo.after hostOps0 (W0 m ρ c) (Proc.devRef .tc main_v7) = _
  after_results
  rfl
theorem V1_arg5 (c : Dev nD) : V1 m ρ c main_arg5 = m ((c : Thread nD τ).loc main_arg5) := by
  show StableHlo.after hostOps0 (W0 m ρ c) (Proc.devRef .tc main_arg5) = _
  after_results
theorem V1_v8 (c : Dev nD) : V1 m ρ c main_v8 = shapeCast S128x1 (m ((c : Thread nD τ).loc main_arg0)) shapeCasts_S128_S128x1 := by
  show StableHlo.after hostOps0 (W0 m ρ c) (Proc.devRef .tc main_v8) = _
  after_results
  rfl
theorem V1_v9 (c : Dev nD) : V1 m ρ c main_v9 = shapeCast S128x8192 (m ((c : Thread nD τ).loc main_arg2)) shapeCasts_S128x8192x1_S128x8192 := by
  show StableHlo.after hostOps0 (W0 m ρ c) (Proc.devRef .tc main_v9) = _
  after_results
  rfl
theorem V1_v10 (c : Dev nD) : V1 m ρ c main_v10 = shapeCast S128x8192 (m ((c : Thread nD τ).loc main_arg3)) shapeCasts_S128x8192x1_S128x8192 := by
  show StableHlo.after hostOps0 (W0 m ρ c) (Proc.devRef .tc main_v10) = _
  after_results
  rfl
theorem V1_v11 (c : Dev nD) : V1 m ρ c main_v11 = shapeCast S128x8192 (m ((c : Thread nD τ).loc main_arg4)) shapeCasts_S128x8192x1_S128x8192 := by
  show StableHlo.after hostOps0 (W0 m ρ c) (Proc.devRef .tc main_v11) = _
  after_results
  rfl
theorem V1_v12 (c : Dev nD) : V1 m ρ c main_v12 = shapeCast S128x128000 (m ((c : Thread nD τ).loc main_arg6)) shapeCasts_S128x128000x1_S128x128000 := by
  show StableHlo.after hostOps0 (W0 m ρ c) (Proc.devRef .tc main_v12) = _
  after_results
  rfl

/-! ## What the second region finds -/

theorem V2_v8 (c : Dev nD) : V2 m ρ c main_v8 = shapeCast S128x1 (m ((c : Thread nD τ).loc main_arg0)) shapeCasts_S128_S128x1 :=
  ((W2_arr m ρ c 2).trans (arr0_2 (V1 m ρ) c)).trans (V1_v8 m ρ c)
theorem V2_v12 (c : Dev nD) : V2 m ρ c main_v12 = shapeCast S128x128000 (m ((c : Thread nD τ).loc main_arg6)) shapeCasts_S128x128000x1_S128x128000 :=
  (W2_of_ne m ρ c main_v12 (by decide)).trans (V1_v12 m ρ c)

/-! ## The results at the last boundary -/

theorem W4_v3 (c : Dev nD) : W4 m ρ c (Proc.devRef .tc main_v3) = Spec.adv (m ((c : Thread nD τ).loc main_arg1)) := by
  have e1 : W4 m ρ c (Proc.devRef .tc main_v3) = W3 m ρ c (Proc.devRef .tc main_v3) := by
    show StableHlo.after hostOps2 (W3 m ρ c) (Proc.devRef .tc main_v3) = _
    after_results
  rw [e1, W3_of_ne m ρ c main_v3 (by decide)]
  exact ((W2_arr m ρ c 0).trans (arr0_0 (V1 m ρ) c)).trans (V1_v3 m ρ c)

theorem W4_v7 (c : Dev nD) : W4 m ρ c (Proc.devRef .tc main_v7) = Spec.adv (m ((c : Thread nD τ).loc main_arg5)) := by
  have e1 : W4 m ρ c (Proc.devRef .tc main_v7) = W3 m ρ c (Proc.devRef .tc main_v7) := by
    show StableHlo.after hostOps2 (W3 m ρ c) (Proc.devRef .tc main_v7) = _
    after_results
  rw [e1, W3_of_ne m ρ c main_v7 (by decide), W2_of_ne m ρ c main_v7 (by decide)]
  exact V1_v7 m ρ c

theorem W4_v15 (c : Dev nD) : W4 m ρ c (Proc.devRef .tc main_v15)
    = Spec.maskOut (Spec.adv (m ((c : Thread nD τ).loc main_arg1))) (m ((c : Thread nD τ).loc main_arg2)) (Scalar.ofBits .f32 0x3F800000#32 : F .f32) := by
  have e1 : W4 m ρ c (Proc.devRef .tc main_v15) = shapeCast S128x8192x1 (W3 m ρ c (Proc.devRef .tc main_v13_0)) shapeCasts_S128x8192_S128x8192x1 := by
    show StableHlo.after hostOps2 (W3 m ρ c) (Proc.devRef .tc main_v15) = _
    after_results
    rfl
  have e2 : W3 m ρ c (Proc.devRef .tc main_v13_0) = G6 (V1 m ρ c main_v3) (V1 m ρ c main_v9) :=
    (W3_of_ne m ρ c main_v13_0 (by decide)).trans ((W2_arr m ρ c 6).trans (final6 (V1 m ρ) c))
  rw [e1, e2, V1_v3, V1_v9]
  exact mask_view _ _ _ _

theorem W4_v16 (c : Dev nD) : W4 m ρ c (Proc.devRef .tc main_v16)
    = Spec.tokOut (m ((c : Thread nD τ).loc main_arg5)) (m ((c : Thread nD τ).loc main_arg0)) (m ((c : Thread nD τ).loc main_arg3)) := by
  have e1 : W4 m ρ c (Proc.devRef .tc main_v16) = shapeCast S128x8192x1 (W3 m ρ c (Proc.devRef .tc main_v13_1)) shapeCasts_S128x8192_S128x8192x1 := by
    show StableHlo.after hostOps2 (W3 m ρ c) (Proc.devRef .tc main_v16) = _
    after_results
    rfl
  have e2 : W3 m ρ c (Proc.devRef .tc main_v13_1) = G7 (V1 m ρ c main_arg5) (V1 m ρ c main_v8) (V1 m ρ c main_v10) :=
    (W3_of_ne m ρ c main_v13_1 (by decide)).trans ((W2_arr m ρ c 7).trans (final7 (V1 m ρ) c))
  rw [e1, e2, V1_arg5, V1_v8, V1_v10]
  exact tok_view _ _ _ _ _ _

theorem W4_v17 (c : Dev nD) : W4 m ρ c (Proc.devRef .tc main_v17)
    = Spec.tokOut (m ((c : Thread nD τ).loc main_arg5)) (m ((c : Thread nD τ).loc main_arg0)) (m ((c : Thread nD τ).loc main_arg4)) := by
  have e1 : W4 m ρ c (Proc.devRef .tc main_v17) = shapeCast S128x8192x1 (W3 m ρ c (Proc.devRef .tc main_v13_2)) shapeCasts_S128x8192_S128x8192x1 := by
    show StableHlo.after hostOps2 (W3 m ρ c) (Proc.devRef .tc main_v17) = _
    after_results
    rfl
  have e2 : W3 m ρ c (Proc.devRef .tc main_v13_2) = G7 (V1 m ρ c main_arg5) (V1 m ρ c main_v8) (V1 m ρ c main_v11) :=
    (W3_of_ne m ρ c main_v13_2 (by decide)).trans ((W2_arr m ρ c 8).trans (final8 (V1 m ρ) c))
  rw [e1, e2, V1_arg5, V1_v8, V1_v11]
  exact tok_view _ _ _ _ _ _

theorem W4_v18 (c : Dev nD) : W4 m ρ c (Proc.devRef .tc main_v18)
    = Spec.cntOut (m ((c : Thread nD τ).loc main_arg0)) (m ((c : Thread nD τ).loc main_arg6)) := by
  have e1 : W4 m ρ c (Proc.devRef .tc main_v18) = shapeCast S128x128000x1 (W3 m ρ c (Proc.devRef .tc main_v14)) shapeCasts_S128x128000_S128x128000x1 := by
    show StableHlo.after hostOps2 (W3 m ρ c) (Proc.devRef .tc main_v18) = _
    after_results
    rfl
  have e2 : W3 m ρ c (Proc.devRef .tc main_v14) = H2 (V2 m ρ c main_v8) (V2 m ρ c main_v12) :=
    (W3_arr m ρ c 2).trans (finalH (V2 m ρ) c)
  rw [e1, e2, V2_v8, V2_v12]
  exact cnt_view _ _ _ _ _

end Cert.KernelIdeal.KVal

end
-- ==== Proof.Words.lean ====
import Idealize.ShloMosaic.PureOps.Float

/-!
Facts about 32-bit words.

An index word `k` is normalised against an axis of length `N` (a negative word has `N` added),
and a column number `c < N` is compared with it. The statements say when reading the
normalised word as an integer and comparing with `c` is the same as comparing the words.
-/

namespace Cert.Words

open Idealize.ShloMosaic

/-- A word read signed, in terms of its unsigned reading. -/
private theorem toInt_cond (x : BitVec 32) :
    x.toInt = if 2 * x.toNat < 2 ^ 32 then (x.toNat : ℤ) else (x.toNat : ℤ) - 2 ^ 32 := by
  have := BitVec.toInt_eq_toNat_cond x
  simpa using this

/-- The signed comparison `x <s y` answers `1` exactly when `x` read signed is below `y` read signed. -/
private theorem cmpi_slt_iff (x y : BitVec 32) : IntOp.cmpi .slt x y = 1 ↔ x.toInt < y.toInt := by
  simp only [IntOp.cmpi]
  rw [← BitVec.slt_iff_toInt_lt]
  cases x.slt y <;> decide

/-- The normalisation of `k` against an axis of length `N` hits column `c < N` exactly when
    `k` is the word of `c`, provided `k` is not in the wrapped range `[-N, -1]`: a nonnegative `k`
    is unchanged, and a `k < -N` stays negative after `N` is added, so neither side holds. -/
theorem norm_hit (N : ℕ) (hN : N ≤ 2 ^ 30) (k : BitVec 32) (c : ℕ) (hc : c < N)
    (hk : 0 ≤ k.toInt ∨ k.toInt < -(N : ℤ)) :
    (Scalar.select (IntOp.cmpi .slt k 0#32) (IntOp.addi k (BitVec.ofNat 32 N)) k).toInt = (c : ℤ)
      ↔ BitVec.ofNat 32 c = k := by
  have hcN : (BitVec.ofNat 32 c).toNat = c := by rw [BitVec.toNat_ofNat]; omega
  have hNN : (BitVec.ofNat 32 N).toNat = N := by rw [BitVec.toNat_ofNat]; omega
  have hr : BitVec.ofNat 32 c = k ↔ k.toNat = c := by
    rw [← BitVec.toNat_inj, hcN]; exact eq_comm
  rw [hr]
  have hkI := toInt_cond k
  have hlt := k.isLt
  have h0 : (0#32 : BitVec 32).toInt = 0 := by decide
  have hcmp := cmpi_slt_iff k 0#32
  rw [h0] at hcmp
  unfold Scalar.select
  by_cases hs : k.toInt < 0
  · -- a negative word: the axis length is added; by the hypothesis the sum is still negative
    rw [if_pos (hcmp.mpr hs)]
    unfold IntOp.addi
    have hsum := toInt_cond (k + BitVec.ofNat 32 N)
    rw [BitVec.toNat_add, hNN] at hsum
    rw [hsum]
    split_ifs at hkI hsum ⊢ <;> omega
  · -- a nonnegative word: unchanged, and its signed and unsigned readings agree
    rw [if_neg (fun h => hs (hcmp.mp h))]
    rw [hkI]
    split_ifs at hkI ⊢ <;> omega

/-- One past a nonnegative word, capped at 8191 (signed minimum): the sum is positive unless the word is
    the largest one, where it wraps to `-2^31`, far below `-8192`; the cap itself is positive. So the
    result is never in the wrapped range `[-8192, -1]`. -/
theorem adv_sign (x : BitVec 32) (hx : 0 ≤ x.toInt) :
    0 ≤ (IntOp.minsi (IntOp.addi x 1#32) 8191#32).toInt
      ∨ (IntOp.minsi (IntOp.addi x 1#32) 8191#32).toInt < -8192 := by
  have hxI := toInt_cond x
  have hlt := x.isLt
  have h1 : (1#32 : BitVec 32).toNat = 1 := by decide
  have hcap : (8191#32 : BitVec 32).toInt = 8191 := by decide
  unfold IntOp.minsi IntOp.addi
  split
  · -- the sum is the smaller: read it through its unsigned value
    have hsum := toInt_cond (x + 1#32)
    rw [BitVec.toNat_add, h1] at hsum
    rw [hsum]
    split_ifs at hxI hsum ⊢ <;> omega
  · -- the cap is the smaller
    rw [hcap]; omega

/-- A nonnegative word is outside the wrapped range of any axis length. -/
theorem nonneg_hit (N : ℕ) (hN : N ≤ 2 ^ 30) (k : BitVec 32) (hk : 0 ≤ k.toInt) :
    0 ≤ k.toInt ∨ k.toInt < -(N : ℤ) := Or.inl hk

end Cert.Words
-- ==== Proof.LibScatterRows.lean ====
/-
  A SCATTER OF ONE ELEMENT PER ROW, READ AT AN INDEX, and three one-column arrays laid side by side.

  The host scatter that `x.at[arange(B), k, 0].set(v)` / `.add(v)` lowers to: an operand of shape `[B, N, 1]`,
  scatter indices `[B, 3]` whose row `b` is the index vector `(b, k_b, 0)`, updates `[B]`, no window axes, the
  operand's three axes all inserted and named in order by the index vector (the scatter indices' axis 1). The scatter is
  a left fold over the update indices in row-major order; each update lands at its start index, read signed and not
  clamped, and is dropped when that index is outside the operand.

  General facts, for any dimension numbers:
  * `scatter_apply_fold`: the scatter read at a fixed index `i'` is the fold, from the operand's element at `i'`, of
    the pointwise step "combine with update `n` if update `n` lands at `i'`, else leave alone";
  * `foldl_ite_of_forall_not`, `foldl_ite_of_unique`: such a conditional fold over a list without repeats, when only
    one element can meet the condition, is one application of the step or none;
  * `resultIdx?_eq_some_iff`: an update lands at `i'` exactly when start plus window coordinate is `i'`'s coordinate
    on every axis.

  For the dimension numbers above (`siIdx_rows`, `start_rows`, `window_rows`, `resultIdx?_rows_iff`): update `j`
  reads its start index off row `j 0` of the scatter indices, component `a` for operand axis `a`, and has window
  coordinate `0` everywhere. When row `b`'s first word is `b` and its last word is `0`, update `j` lands at
  `(b, c, 0)` exactly when `j` is `b` and row `b`'s middle word, read signed, is `c`. So (`scatter_rows_apply`) the
  fold meets at most one update at `(b, c, 0)`: the result there is the combiner applied to the operand's element and
  update `b` when the middle word of row `b` is `c`, and the operand's element otherwise.

  Last (`concat3_cols_apply`): three `[B, 1]` columns concatenated along axis 1 give the `[B, 3]` array whose
  column `k` is the `k`-th column.
-/
import Idealize.ShloMosaic.Lib.ValueIdx
import Idealize.ShloMosaic.Lib.Pipeline.Value

namespace Idealize.ShloMosaic.ScatterRows

open Idealize.ShloMosaic
open Idealize.ShloMosaic.ValueIdx

section General

variable {α : Type} {s si u : Shape} {w : ℕ}

/-- **The scatter read at one index is a fold of values.** Each step of the scatter's fold changes the element at
    `i'` only when its update lands at `i'`, and then to the combiner of that element and the update; so the element
    at `i'` of the result is the fold of that pointwise step from `x i'`. -/
theorem scatter_apply_fold (d : ScatterDims s si u) (f : α → α → α) (x : s.Idx → α) (idx : IVec si w)
    (upd : u.Idx → α) (i' : s.Idx) :
    Host.scatter d f x idx upd i'
      = (List.finRange u.numel).foldl
          (fun a n => if d.resultIdx? (u.rowMajor.symm n) idx = some i' then f a (upd (u.rowMajor.symm n)) else a)
          (x i') := by
  unfold Host.scatter
  generalize List.finRange u.numel = l
  induction l generalizing x with
  | nil => rfl
  | cons n l ih =>
    rw [List.foldl_cons, List.foldl_cons, ih]
    congr 1
    cases hres : d.resultIdx? (u.rowMajor.symm n) idx with
    | none => simp
    | some i =>
      by_cases hi : i' = i
      · subst hi; simp
      · have hne : ¬ (some i = some i') := fun h => hi (Option.some.inj h).symm
        simp [hi, hne]

/-- A fold whose conditional step fires for no element of the list leaves the accumulator as it was. -/
theorem foldl_ite_of_forall_not {β γ : Type} (p : β → Prop) [DecidablePred p] (g : γ → β → γ) (l : List β) (a : γ)
    (h : ∀ n ∈ l, ¬ p n) : l.foldl (fun a n => if p n then g a n else a) a = a := by
  induction l generalizing a with
  | nil => rfl
  | cons n l ih =>
    rw [List.foldl_cons, if_neg (h n (List.mem_cons_self ..))]
    exact ih a fun m hm => h m (List.mem_cons_of_mem _ hm)

/-- A fold whose conditional step can fire only at the element `n₀` of a list without repeats is the step at
    `n₀`, applied once if its condition holds and not at all otherwise. -/
theorem foldl_ite_of_unique {β γ : Type} (p : β → Prop) [DecidablePred p] (g : γ → β → γ) (l : List β) (a : γ)
    (hnd : l.Nodup) (n₀ : β) (hmem : n₀ ∈ l) (huniq : ∀ n ∈ l, p n → n = n₀) :
    l.foldl (fun a n => if p n then g a n else a) a = if p n₀ then g a n₀ else a := by
  induction l generalizing a with
  | nil => exact absurd hmem (List.not_mem_nil)
  | cons n l ih =>
    rw [List.foldl_cons]
    have hnd' := List.nodup_cons.1 hnd
    by_cases hn : n = n₀
    · subst hn
      exact foldl_ite_of_forall_not p g l _ fun m hm hpm =>
        hnd'.1 (huniq m (List.mem_cons_of_mem _ hm) hpm ▸ hm)
    · have hpn : ¬ p n := fun h => hn (huniq n (List.mem_cons_self ..) h)
      rw [if_neg hpn]
      have hmem' : n₀ ∈ l := by
        rcases List.mem_cons.1 hmem with h | h
        · exact absurd h.symm hn
        · exact h
      exact ih a hnd'.2 hmem' fun m hm => huniq m (List.mem_cons_of_mem _ hm)

/-- An update index lands at `i'` exactly when, on every operand axis, its start plus its window coordinate is
    `i'`'s coordinate. -/
theorem resultIdx?_eq_some_iff (d : ScatterDims s si u) (j : u.Idx) (idx : IVec si w) (i' : s.Idx) :
    d.resultIdx? j idx = some i' ↔ ∀ a, d.start j idx a + (d.window j a : ℤ) = ((i' a).val : ℤ) := by
  unfold ScatterDims.resultIdx?
  constructor
  · intro h a
    split at h
    · next hin =>
      have h1 := congrFun (Option.some.inj h) a
      have h2 := congrArg Fin.val h1
      simp only at h2
      have := (hin a).1
      omega
    · exact absurd h (by simp)
  · intro h
    have hin : ∀ a, 0 ≤ d.start j idx a + d.window j a ∧ d.start j idx a + d.window j a < s.size a := fun a => by
      rw [h a]; exact ⟨Int.natCast_nonneg _, by exact_mod_cast (i' a).isLt⟩
    rw [dif_pos hin]
    congr 1
    funext a
    apply Fin.ext
    simp only
    rw [h a]; exact Int.toNat_natCast _

end General

section Rows

variable {α : Type} {B N w : ℕ}

/-- A coordinate of an index of a one-axis shape, read at any name of that axis, is its coordinate. -/
theorem idx1_val {n : ℕ} (j : (⟨1, ![n]⟩ : Shape).Idx) (a : Fin 1) : (j a).val = (j 0).val := by
  have : a = 0 := Subsingleton.elim _ _
  subst this; rfl

/-- Update `j` reads component `c` of its start index at row `j 0`, column `c` of the scatter indices. -/
theorem siIdx_rows
    (hw : ScatterDims.WF (⟨3, ![B, N, 1]⟩ : Shape) ⟨2, ![B, 3]⟩ ⟨1, ![B]⟩ [] [0, 1, 2] [0, 1, 2] 1)
    (j : (⟨1, ![B]⟩ : Shape).Idx) (c : Fin 3) :
    (⟨[], [0, 1, 2], [0, 1, 2], 1, hw⟩ : ScatterDims (⟨3, ![B, N, 1]⟩ : Shape) ⟨2, ![B, 3]⟩ ⟨1, ![B]⟩).siIdx j c
      = ix2 (j 0) c := by
  funext b
  match b with
  | ⟨0, _⟩ =>
    apply Fin.ext
    unfold ScatterDims.siIdx
    rw [dif_neg (show ¬ ((0 : ℕ) = 1) from Nat.zero_ne_one)]
    unfold ScatterDims.siCoord
    exact idx1_val j _
  | ⟨1, _⟩ =>
    apply Fin.ext
    unfold ScatterDims.siIdx
    rw [dif_pos (by rfl)]

/-- The start on operand axis `a` for update `j`: the word at row `j 0`, column `a` of the scatter indices, read
    signed (all three operand axes are named by the index vector, in order). -/
theorem start_rows
    (hw : ScatterDims.WF (⟨3, ![B, N, 1]⟩ : Shape) ⟨2, ![B, 3]⟩ ⟨1, ![B]⟩ [] [0, 1, 2] [0, 1, 2] 1)
    (j : (⟨1, ![B]⟩ : Shape).Idx) (idx : IVec (⟨2, ![B, 3]⟩ : Shape) w) (a : Fin 3) :
    (⟨[], [0, 1, 2], [0, 1, 2], 1, hw⟩ : ScatterDims (⟨3, ![B, N, 1]⟩ : Shape) ⟨2, ![B, 3]⟩ ⟨1, ![B]⟩).start j idx a
      = (idx (ix2 (j 0) a)).toInt := by
  have hmem : a ∈ ([0, 1, 2] : List (Fin 3)) := by fin_cases a <;> simp
  unfold ScatterDims.start
  rw [dif_pos hmem, siIdx_rows]
  congr 3
  fin_cases a <;> rfl

/-- Every operand axis is an inserted one: the window coordinate is `0` on each. -/
theorem window_rows
    (hw : ScatterDims.WF (⟨3, ![B, N, 1]⟩ : Shape) ⟨2, ![B, 3]⟩ ⟨1, ![B]⟩ [] [0, 1, 2] [0, 1, 2] 1)
    (j : (⟨1, ![B]⟩ : Shape).Idx) (a : Fin 3) :
    (⟨[], [0, 1, 2], [0, 1, 2], 1, hw⟩ : ScatterDims (⟨3, ![B, N, 1]⟩ : Shape) ⟨2, ![B, 3]⟩ ⟨1, ![B]⟩).window j a = 0 := by
  unfold ScatterDims.window
  rw [dif_neg]
  show a ∉ (List.finRange 3).filter (· ∉ ([0, 1, 2] : List (Fin 3)))
  fin_cases a <;> decide

/-- When row `b` of the scatter indices begins with `b` and ends with `0` (for every `b`), update `j` lands at
    `(b, c, 0)` exactly when `j` is row `b`'s update and row `b`'s middle word, read signed, is `c`. -/
theorem resultIdx?_rows_iff
    (hw : ScatterDims.WF (⟨3, ![B, N, 1]⟩ : Shape) ⟨2, ![B, 3]⟩ ⟨1, ![B]⟩ [] [0, 1, 2] [0, 1, 2] 1)
    (idx : IVec (⟨2, ![B, 3]⟩ : Shape) w)
    (hrow : ∀ b : Fin B, (idx (ix2 b 0)).toInt = (b.val : ℤ)) (hlast : ∀ b : Fin B, (idx (ix2 b 2)).toInt = 0)
    (j : (⟨1, ![B]⟩ : Shape).Idx) (b : Fin B) (c : Fin N) :
    (⟨[], [0, 1, 2], [0, 1, 2], 1, hw⟩ : ScatterDims (⟨3, ![B, N, 1]⟩ : Shape) ⟨2, ![B, 3]⟩ ⟨1, ![B]⟩).resultIdx? j idx
        = some (ix3 b c 0)
      ↔ j 0 = b ∧ (idx (ix2 b 1)).toInt = (c.val : ℤ) := by
  rw [resultIdx?_eq_some_iff]
  constructor
  · intro h
    have h0 := h 0
    have h1 := h 1
    rw [start_rows, window_rows] at h0 h1
    have hj : j 0 = b := by
      apply Fin.ext
      have hr := hrow (j 0)
      have h0' : (idx (ix2 (j 0) 0)).toInt = (b.val : ℤ) := by
        simp only [Nat.cast_zero, add_zero] at h0; exact h0
      omega
    refine ⟨hj, ?_⟩
    rw [hj] at h1
    simp only [Nat.cast_zero, add_zero] at h1; exact h1
  · rintro ⟨hj, hc⟩ a
    rw [start_rows, window_rows, hj]
    fin_cases a
    · simpa using hrow b
    · simpa using hc
    · simpa using hlast b

/-- **The row scatter at `(b, c, 0)`.** Only row `b`'s update has first coordinate `b`, so the fold meets at most
    that one update there: the result is `f` of the operand's element and update `b` when row `b`'s middle word,
    read signed, is `c`, and the operand's element otherwise. -/
theorem scatter_rows_apply
    (hw : ScatterDims.WF (⟨3, ![B, N, 1]⟩ : Shape) ⟨2, ![B, 3]⟩ ⟨1, ![B]⟩ [] [0, 1, 2] [0, 1, 2] 1)
    (f : α → α → α) (x : (⟨3, ![B, N, 1]⟩ : Shape).Idx → α) (idx : IVec (⟨2, ![B, 3]⟩ : Shape) w)
    (upd : (⟨1, ![B]⟩ : Shape).Idx → α)
    (hrow : ∀ b : Fin B, (idx (ix2 b 0)).toInt = (b.val : ℤ)) (hlast : ∀ b : Fin B, (idx (ix2 b 2)).toInt = 0)
    (b : Fin B) (c : Fin N) :
    Host.scatter (⟨[], [0, 1, 2], [0, 1, 2], 1, hw⟩ : ScatterDims (⟨3, ![B, N, 1]⟩ : Shape) ⟨2, ![B, 3]⟩ ⟨1, ![B]⟩)
        f x idx upd (ix3 b c 0)
      = if (idx (ix2 b 1)).toInt = (c.val : ℤ) then f (x (ix3 b c 0)) (upd (ix1 b)) else x (ix3 b c 0) := by
  rw [scatter_apply_fold]
  rw [foldl_ite_of_unique _ _ _ _ (List.nodup_finRange _) ((⟨1, ![B]⟩ : Shape).rowMajor (ix1 b)) (List.mem_finRange _)]
  · rw [Equiv.symm_apply_apply]
    refine if_congr ?_ rfl rfl
    rw [resultIdx?_rows_iff hw idx hrow hlast]
    exact ⟨fun h => h.2, fun h => ⟨rfl, h⟩⟩
  · intro n _ hp
    have h0 := ((resultIdx?_rows_iff hw idx hrow hlast _ b c).1 hp).1
    rw [← Equiv.symm_apply_eq, eq_ix1 ((⟨1, ![B]⟩ : Shape).rowMajor.symm n), h0]
    rfl

end Rows

section Columns

variable {α : Type} {B : ℕ}

/-- **Three columns side by side.** The concatenation along axis 1 of three `[B, 1]` arrays, read at `(b, k)` for
    `k = 0, 1, 2`, is the `k`-th array at `(b, 0)`: piece `k` begins after `k` columns of width one. -/
theorem concat3_cols_apply
    (h : Shape.Concatenates [(⟨2, ![B, 1]⟩ : Shape), ⟨2, ![B, 1]⟩, ⟨2, ![B, 1]⟩] (⟨2, ![B, 3]⟩ : Shape) 1)
    (x0 x1 x2 : (⟨2, ![B, 1]⟩ : Shape).Idx → α) (b : Fin B) :
    concatenate (⟨2, ![B, 3]⟩ : Shape) 1 [⟨⟨2, ![B, 1]⟩, x0⟩, ⟨⟨2, ![B, 1]⟩, x1⟩, ⟨⟨2, ![B, 1]⟩, x2⟩] h (ix2 b 0)
        = x0 (ix2 b 0)
    ∧ concatenate (⟨2, ![B, 3]⟩ : Shape) 1 [⟨⟨2, ![B, 1]⟩, x0⟩, ⟨⟨2, ![B, 1]⟩, x1⟩, ⟨⟨2, ![B, 1]⟩, x2⟩] h (ix2 b 1)
        = x1 (ix2 b 0)
    ∧ concatenate (⟨2, ![B, 3]⟩ : Shape) 1 [⟨⟨2, ![B, 1]⟩, x0⟩, ⟨⟨2, ![B, 1]⟩, x1⟩, ⟨⟨2, ![B, 1]⟩, x2⟩] h (ix2 b 2)
        = x2 (ix2 b 0) := by
  have hi : ∀ (k : Fin 3) (b' : Fin 2), b'.cast (rfl : (2 : ℕ) = 2) ≠ (1 : Fin 2) →
      ((ix2 b (0 : Fin 1) : (⟨2, ![B, 1]⟩ : Shape).Idx) b').val
        = ((ix2 b k : (⟨2, ![B, 3]⟩ : Shape).Idx) (b'.cast (rfl : (2 : ℕ) = 2))).val := by
    intro k b' hb
    fin_cases b'
    · rfl
    · exact absurd rfl hb
  refine ⟨?_, ?_, ?_⟩
  · exact concatenate_apply_piece 1 [⟨⟨2, ![B, 1]⟩, x0⟩, ⟨⟨2, ![B, 1]⟩, x1⟩, ⟨⟨2, ![B, 1]⟩, x2⟩] h (ix2 b 0) 0 (show (0 : ℕ) < 3 by omega) ⟨2, ![B, 1]⟩ x0 rfl rfl 0 rfl (ix2 b 0) (hi 0) rfl
  · exact concatenate_apply_piece 1 [⟨⟨2, ![B, 1]⟩, x0⟩, ⟨⟨2, ![B, 1]⟩, x1⟩, ⟨⟨2, ![B, 1]⟩, x2⟩] h (ix2 b 1) 1 (show (1 : ℕ) < 3 by omega) ⟨2, ![B, 1]⟩ x1 rfl rfl 1 rfl (ix2 b 0) (hi 1) rfl
  · exact concatenate_apply_piece 1 [⟨⟨2, ![B, 1]⟩, x0⟩, ⟨⟨2, ![B, 1]⟩, x1⟩, ⟨⟨2, ![B, 1]⟩, x2⟩] h (ix2 b 2) 2 (show (2 : ℕ) < 3 by omega) ⟨2, ![B, 1]⟩ x2 rfl rfl 2 rfl (ix2 b 0) (hi 2) rfl

end Columns

end Idealize.ShloMosaic.ScatterRows
-- ==== Proof.RefVal.lean ====
/-
  The reference program's six computed results as the specification's functions of the inputs.

  Each `x.at[arange(128), k, 0]` update prints as a scatter over index rows `(b, k'_b, 0)`: the batch number, the index
  word `k_b` normalised the numpy way (`k_b + N` when `k_b` is negative, `N` the axis length) and a zero. Row `b`'s
  update is the only one that can land in row `b` of the operand, and it lands at column `c` exactly when the
  normalised word, read signed, is `c`; an index outside the operand drops the update. When no index word lies in the
  wrapped range `[-N, -1]` — here because the index inputs are nonnegative — that happens exactly when `k_b` is the
  word of `c`, which is the specification's test.
-/
import proofs.«426699_j13640816132357_1_alg».proof.Proof.Gen.ReferenceIdeal.Read
import proofs.«426699_j13640816132357_1_alg».proof.Proof.Spec
import proofs.«426699_j13640816132357_1_alg».proof.Proof.Words
import proofs.«426699_j13640816132357_1_alg».proof.Proof.LibScatterRows
import proofs.«426699_j13640816132357_1_alg».proof.Proof.LibTrailingUnit

set_option maxRecDepth 16384

noncomputable section

namespace Cert.ReferenceIdeal.RefVal

open Idealize.ShloMosaic Idealize.ShloMosaic.ValueIdx Idealize.ShloMosaic.TrailingUnit Idealize.ShloMosaic.ScatterRows
open Cert.ReferenceIdeal Cert.ReferenceIdeal.Gen Cert.ReferenceIdeal.Read

variable {F : FTy → Type} [FloatOps F]

/-- The index rows the reference builds from a vector `kk` of index words against an axis whose length is the word `Nw`. -/
def rows (kk : IVec S128 32) (Nw : BitVec 32) : IVec S128x3 32 :=
  concatenate S128x3 1
    [⟨S128x1, broadcastInDim S128x1 ![0] bcast_S128_S128x1_0 (select (cmpi .slt (iotaInDim S128 32 0) (broadcastInDim S128 ![] bcast_S_S128 (constantI S_ 32 0#32))) (addi (iotaInDim S128 32 0) (broadcastInDim S128 ![] bcast_S_S128 (constantI S_ 32 128#32))) (iotaInDim S128 32 0))⟩,
     ⟨S128x1, broadcastInDim S128x1 ![0] bcast_S128_S128x1_0 (select (cmpi .slt kk (broadcastInDim S128 ![] bcast_S_S128 (constantI S_ 32 0#32))) (addi kk (broadcastInDim S128 ![] bcast_S_S128 (constantI S_ 32 Nw))) kk)⟩,
     ⟨S128x1, broadcastInDim S128x1 ![0] bcast_S128_S128x1_0 (id (broadcastInDim S128 ![] bcast_S_S128 (constantI S_ 32 0#32)))⟩]
    concatenates_S128x1_S128x1_S128x1_S128x3_d1

/-- A vector of 128 words made a column reads its row's word. -/
theorem col_of_vec (y : IVec S128 32) (b : Fin 128) :
    broadcastInDim S128x1 ![0] bcast_S128_S128x1_0 y (ix2 b (0 : Fin 1)) = y (ix1 b) :=
  broadcastInDim_apply _ bcast_S128_S128x1_0 y (ix2 b (0 : Fin 1)) (ix1 b) (fun a => match a with
    | ⟨0, _⟩ => by show b.val = if (128 : Nat) = 1 then 0 else b.val; rw [if_neg (by decide)])

/-- A batch number's word is nonnegative, so its normalisation leaves it: read signed it is the batch number. -/
theorem batch_word (b : Fin 128) :
    (Scalar.select (IntOp.cmpi .slt (BitVec.ofNat 32 b.val) 0#32) (IntOp.addi (BitVec.ofNat 32 b.val) (BitVec.ofNat 32 128)) (BitVec.ofNat 32 b.val)).toInt = (b.val : ℤ) := by
  have hb := b.isLt
  have h0 : 0 ≤ (BitVec.ofNat 32 b.val).toInt := by
    rw [BitVec.toInt_eq_toNat_cond, BitVec.toNat_ofNat]
    have : b.val % 2 ^ 32 = b.val := Nat.mod_eq_of_lt (by omega)
    rw [this]
    split <;> omega
  exact (Cert.Words.norm_hit 128 (by norm_num) (BitVec.ofNat 32 b.val) b.val hb (Or.inl h0)).2 rfl

theorem rows_0 (kk : IVec S128 32) (Nw : BitVec 32) (b : Fin 128) : (rows kk Nw (ix2 b (0 : Fin 3))).toInt = (b.val : ℤ) := by
  unfold rows
  rw [(concat3_cols_apply concatenates_S128x1_S128x1_S128x1_S128x3_d1 _ _ _ b).1, col_of_vec]
  exact batch_word b

theorem rows_1 (kk : IVec S128 32) (Nw : BitVec 32) (b : Fin 128) :
    rows kk Nw (ix2 b (1 : Fin 3)) = Scalar.select (IntOp.cmpi .slt (kk (ix1 b)) 0#32) (IntOp.addi (kk (ix1 b)) Nw) (kk (ix1 b)) := by
  unfold rows
  rw [(concat3_cols_apply concatenates_S128x1_S128x1_S128x1_S128x3_d1 _ _ _ b).2.1, col_of_vec]
  rfl

theorem rows_2 (kk : IVec S128 32) (Nw : BitVec 32) (b : Fin 128) : (rows kk Nw (ix2 b (2 : Fin 3))).toInt = 0 := by
  unfold rows
  rw [(concat3_cols_apply concatenates_S128x1_S128x1_S128x1_S128x3_d1 _ _ _ b).2.2, col_of_vec]
  show (0#32 : BitVec 32).toInt = 0
  decide

/-- THE SCATTER READ AT AN INDEX: with no index word in the wrapped range, row `b`'s update lands at column `c` exactly
    when the row's index word is the word of `c`. -/
theorem scatter_read {α : Type} (N : ℕ) (hN : N ≤ 2 ^ 30)
    (hw : ScatterDims.WF (⟨3, ![128, N, 1]⟩ : Shape) ⟨2, ![128, 3]⟩ ⟨1, ![128]⟩ [] [0, 1, 2] [0, 1, 2] 1)
    (f : α → α → α) (x : (⟨3, ![128, N, 1]⟩ : Shape).Idx → α) (kk : IVec S128 32) (upd : S128.Idx → α)
    (hk : ∀ b : Fin 128, 0 ≤ (kk (ix1 b)).toInt ∨ (kk (ix1 b)).toInt < -(N : ℤ)) (b : Fin 128) (c : Fin N) :
    Host.scatter (⟨[], [0, 1, 2], [0, 1, 2], 1, hw⟩ : ScatterDims (⟨3, ![128, N, 1]⟩ : Shape) ⟨2, ![128, 3]⟩ ⟨1, ![128]⟩)
        f x (rows kk (BitVec.ofNat 32 N)) upd (ix3 b c 0)
      = if BitVec.ofNat 32 c.val = kk (ix1 b) then f (x (ix3 b c 0)) (upd (ix1 b)) else x (ix3 b c 0) := by
  rw [scatter_rows_apply hw f x (rows kk (BitVec.ofNat 32 N)) upd (rows_0 kk _) (rows_2 kk _) b c, rows_1]
  exact if_congr (Cert.Words.norm_hit N hN (kk (ix1 b)) c.val c.isLt (hk b)) rfl rfl

/-- The advanced index column, in the reference's own operations. -/
theorem adv_eq (x : IVec S128x1 32) : val_main_v4 (F := F) x = Cert.Spec.adv x := rfl
theorem adv_eq' (x : IVec S128x1 32) : val_main_v63 (F := F) x = Cert.Spec.adv x := rfl

/-- The mask result. -/
theorem mask_eq (a1 : IVec S128x1 32) (a2 : FVec F S128x8192x1 .f32) (h1 : ∀ i, 0 ≤ (a1 i).toInt) :
    val_main_v23 (F := F) a1 a2 = Cert.Spec.maskOut (Cert.Spec.adv a1) a2 (Scalar.ofBits .f32 0x3F800000#32 : F .f32) := by
  funext i
  obtain ⟨b, c, rfl⟩ : ∃ (b : Fin 128) (c : Fin 8192), i = ix3 b c (0 : Fin 1) := ⟨i 0, i 1, eq_ix3_unit i⟩
  have hk : ∀ b : Fin 128, 0 ≤ (val_main_v5 (F := F) a1 (ix1 b)).toInt ∨ (val_main_v5 (F := F) a1 (ix1 b)).toInt < -((8192 : ℕ) : ℤ) := fun b => by
    have e : val_main_v5 (F := F) a1 (ix1 b) = Cert.Spec.adv a1 (ix2 b (0 : Fin 1)) := shapeCast_a1_a_apply _ _ b
    rw [e]
    exact Cert.Words.adv_sign (a1 (ix2 b (0 : Fin 1))) (h1 _)
  refine (scatter_read (α := F .f32) 8192 (by norm_num) scatter_S128x8192x1_S128x3_S128_n_012_012_1_wf (fun _ u => u) a2
    (val_main_v5 (F := F) a1) (val_main_v6 (F := F)) hk b c).trans ?_
  have e : val_main_v5 (F := F) a1 (ix1 b) = Cert.Spec.adv a1 (ix2 b (0 : Fin 1)) := shapeCast_a1_a_apply _ _ b
  rw [e]
  rfl

/-- The two token results. -/
theorem tok_eq (a0 : IVec S128 32) (a3 : IVec S128x8192x1 32) (a5 : IVec S128x1 32) (h5 : ∀ i, 0 ≤ (a5 i).toInt) :
    val_main_v41 (F := F) a0 a3 a5 = Cert.Spec.tokOut a5 a0 a3 := by
  funext i
  obtain ⟨b, c, rfl⟩ : ∃ (b : Fin 128) (c : Fin 8192), i = ix3 b c (0 : Fin 1) := ⟨i 0, i 1, eq_ix3_unit i⟩
  have e : ∀ b : Fin 128, val_main_v24 (F := F) a5 (ix1 b) = a5 (ix2 b (0 : Fin 1)) := fun b => shapeCast_a1_a_apply _ _ b
  have hk : ∀ b : Fin 128, 0 ≤ (val_main_v24 (F := F) a5 (ix1 b)).toInt ∨ (val_main_v24 (F := F) a5 (ix1 b)).toInt < -((8192 : ℕ) : ℤ) := fun b => by
    rw [e]; exact Or.inl (h5 _)
  refine (scatter_read (α := BitVec 32) 8192 (by norm_num) scatter_S128x8192x1_S128x3_S128_n_012_012_1_wf (fun _ u => u) a3
    (val_main_v24 (F := F) a5) a0 hk b c).trans ?_
  rw [e]
  rfl

theorem tok_eq' (a0 : IVec S128 32) (a4 : IVec S128x8192x1 32) (a5 : IVec S128x1 32) (h5 : ∀ i, 0 ≤ (a5 i).toInt) :
    val_main_v59 (F := F) a0 a4 a5 = Cert.Spec.tokOut a5 a0 a4 := by
  funext i
  obtain ⟨b, c, rfl⟩ : ∃ (b : Fin 128) (c : Fin 8192), i = ix3 b c (0 : Fin 1) := ⟨i 0, i 1, eq_ix3_unit i⟩
  have e : ∀ b : Fin 128, val_main_v42 (F := F) a5 (ix1 b) = a5 (ix2 b (0 : Fin 1)) := fun b => shapeCast_a1_a_apply _ _ b
  have hk : ∀ b : Fin 128, 0 ≤ (val_main_v42 (F := F) a5 (ix1 b)).toInt ∨ (val_main_v42 (F := F) a5 (ix1 b)).toInt < -((8192 : ℕ) : ℤ) := fun b => by
    rw [e]; exact Or.inl (h5 _)
  refine (scatter_read (α := BitVec 32) 8192 (by norm_num) scatter_S128x8192x1_S128x3_S128_n_012_012_1_wf (fun _ u => u) a4
    (val_main_v42 (F := F) a5) a0 hk b c).trans ?_
  rw [e]
  rfl

/-- The count table. -/
theorem cnt_eq (a0 : IVec S128 32) (a6 : IVec S128x128000x1 32) (h0 : ∀ i, 0 ≤ (a0 i).toInt) :
    val_main_v81 (F := F) a0 a6 = Cert.Spec.cntOut a0 a6 := by
  funext i
  obtain ⟨b, c, rfl⟩ : ∃ (b : Fin 128) (c : Fin 128000), i = ix3 b c (0 : Fin 1) := ⟨i 0, i 1, eq_ix3_unit i⟩
  have hk : ∀ b : Fin 128, 0 ≤ (a0 (ix1 b)).toInt ∨ (a0 (ix1 b)).toInt < -((128000 : ℕ) : ℤ) := fun b => Or.inl (h0 _)
  refine (scatter_read (α := BitVec 32) 128000 (by norm_num) scatter_S128x128000x1_S128x3_S128_n_012_012_1_wf IntOp.addi a6
    a0 (val_main_v64 (F := F)) hk b c).trans ?_
  rfl

end Cert.ReferenceIdeal.RefVal

end
-- ==== Proof.PreSigns.lean ====
import proofs.«426699_j13640816132357_1_alg».proof.Pre_finite_inputs
import Idealize.ShloMosaic.Lib.ReduceAll
import Idealize.ShloMosaic.Lib.ValueIdx

/-!
The printed precondition read back: when the printed function of the inputs is all ones, the
three integer inputs it tests are nonnegative at every index.
-/

namespace Cert.PreSigns

open Idealize.ShloMosaic
open Cert.Pre_finite_inputs

/-- The rank-0 shape has one index. -/
instance : Subsingleton S_.Idx := ⟨fun a b => funext fun d => d.elim0⟩

/-- One element of `x >= 0` (signed, against the broadcast scalar `0`) being `1` says that the
    word `x i` read signed is nonnegative. -/
private theorem sge_zero_elt {s : Shape} (hb : S_.BroadcastsInDim s (![] : Fin 0 → Fin s.rank))
    (x : IVec s 32) (i : s.Idx)
    (e : cmpi .sge x (broadcastInDim s ![] hb (constantI S_ 32 0#32)) i = 1#1) :
    0 ≤ (x i).toInt := by
  have e' : IntOp.cmpi .sge (x i) 0#32 = 1#1 := e
  rw [IntOp.cmpi_sge, show (0#32 : BitVec 32).toInt = 0 from by decide] at e'
  exact e'

/-- The precondition is the conjunction of four all-reductions; the last three say that `a0`, `a1`
    and `a5` are nonnegative everywhere. Each is a reduction by `and` into the one-index shape, so
    its being `1` gives `1` at every element of the compared array. -/
theorem pre_signs {F : FTy → Type} [FloatOps F] [Cert.Pre_finite_inputs.Facts]
    (a0 : IVec Cert.Pre_finite_inputs.S128 32) (a1 : IVec Cert.Pre_finite_inputs.S128x1 32)
    (a2 : FVec F Cert.Pre_finite_inputs.S128x8192x1 .f32)
    (a3 a4 : IVec Cert.Pre_finite_inputs.S128x8192x1 32) (a5 : IVec Cert.Pre_finite_inputs.S128x1 32)
    (a6 : IVec Cert.Pre_finite_inputs.S128x128000x1 32)
    (h : Cert.Pre_finite_inputs.fn (F := F) a0 a1 a2 a3 a4 a5 a6 = fun _ => 1#1) :
    (∀ i, 0 ≤ (a0 i).toInt) ∧ (∀ i, 0 ≤ (a1 i).toInt) ∧ (∀ i, 0 ≤ (a5 i).toInt) := by
  have h0 := congrFun h ValueIdx.ix0
  dsimp only [fn, andi] at h0
  obtain ⟨h012, e5⟩ := IntOp.andi_eq_one.1 h0
  obtain ⟨h02, e1⟩ := IntOp.andi_eq_one.1 h012
  obtain ⟨-, e0⟩ := IntOp.andi_eq_one.1 h02
  exact ⟨fun i => sge_zero_elt _ a0 i (Host.reduce_andi_all _ _ _ _ _ e0 i),
    fun i => sge_zero_elt _ a1 i (Host.reduce_andi_all _ _ _ _ _ e1 i),
    fun i => sge_zero_elt _ a5 i (Host.reduce_andi_all _ _ _ _ _ e5 i)⟩

end Cert.PreSigns
-- ==== Proof.lean ====
/- The decode-step state update: a Pallas kernel program against its jnp reference, equal over the extended reals.

   Both programs advance and cap two index columns, mark one position per row in a mask, write each row's token into
   two token buffers at the row's index, and count each row's token in a histogram. The reference does the three
   updates by indexed scatters, which read an index word the numpy way (a negative word counts from the end of the
   axis, a word outside the axis drops the update); the kernels sweep every column and compare its number with the
   row's index word, so a negative word matches no column. The two agree exactly when no index word lies in
   [-N, -1] for its axis length N, and the precondition asks the three index inputs to be nonnegative (their evident
   domain: they index arrays); the advanced column then is positive, or wraps to the most negative word, which both
   sides drop.

   The frames of the two kernel programs are those of FrameKernel and FrameKernelIdeal. The kernel's results are read off its run (RunKernelIdeal, KerFinal: each output array is one
   whole-array function of what its region finds, the blocks of the grid points tiling it), the reference's off its
   generated run (RefVal: each scatter read at an index), and both are the functions of Spec.lean of the inputs.
   No float arithmetic occurs: the mask's new entries are the constant one on both sides. -/
import proofs.«426699_j13640816132357_1_alg».proof.Defs
import proofs.«426699_j13640816132357_1_alg».proof.Proof.Gen.Kernel
import proofs.«426699_j13640816132357_1_alg».proof.Proof.FrameKernel
import proofs.«426699_j13640816132357_1_alg».proof.Proof.Gen.KernelIdeal
import proofs.«426699_j13640816132357_1_alg».proof.Proof.FrameKernelIdeal
import proofs.«426699_j13640816132357_1_alg».proof.Proof.RunKernelIdeal
import proofs.«426699_j13640816132357_1_alg».proof.Proof.KerFinal
import proofs.«426699_j13640816132357_1_alg».proof.Proof.Gen.ReferenceIdeal
import proofs.«426699_j13640816132357_1_alg».proof.Proof.Gen.ReferenceIdeal.Run
import proofs.«426699_j13640816132357_1_alg».proof.Proof.Gen.ReferenceIdeal.Read
import proofs.«426699_j13640816132357_1_alg».proof.Proof.RefVal
import proofs.«426699_j13640816132357_1_alg».proof.Proof.Gen.Pre_finite_inputs
import proofs.«426699_j13640816132357_1_alg».proof.Proof.PreSigns
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments: the generated frame. -/
theorem frame_k : Cert.frame_Kernel := fun m ρ _ => Cert.Kernel.GenP.frame m ρ

/-- The idealized kernel program runs and leaves its arguments: the generated frame. -/
theorem frame_ki : Cert.frame_KernelIdeal := fun m ρ _ => Cert.KernelIdeal.GenP.frame m ρ

/-- The reference runs and leaves its arguments: its generated run, the results dropped. -/
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- From memories agreeing on the seven inputs, the index inputs nonnegative, both programs end with the advanced
    index columns, the marked mask, the two written token buffers and the incremented histogram of Spec.lean. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.Spec.adv (m ((c.tc : Thread Cert.KernelIdeal.nD Cert.KernelIdeal.τ).loc Cert.KernelIdeal.main_arg1)),
    fun c => Cert.Spec.maskOut (Cert.Spec.adv (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (Scalar.ofBits .f32 0x3F800000#32 : Ideal .f32),
    fun c => Cert.Spec.tokOut (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => Cert.Spec.tokOut (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg4)),
    fun c => Cert.Spec.adv (m ((c.tc : Thread Cert.KernelIdeal.nD Cert.KernelIdeal.τ).loc Cert.KernelIdeal.main_arg5)),
    fun c => Cert.Spec.cntOut (m ((c.tc : Thread Cert.KernelIdeal.nD Cert.KernelIdeal.τ).loc Cert.KernelIdeal.main_arg0)) (m ((c.tc : Thread Cert.KernelIdeal.nD Cert.KernelIdeal.τ).loc Cert.KernelIdeal.main_arg6)), ?_, ?_⟩
  · -- the kernel program: every unscoped buffer ends at the last boundary's contents, read result by result
    refine (θ_run Cert.KernelIdeal.defs _ _).mono (fun r h c => ?_) (Cert.KernelIdeal.GenP.run_all (F := Ideal) m ρ)
    exact ⟨(h c _ (Cert.KernelIdeal.GenP.mem_uc Cert.KernelIdeal.main_arg0 (by decide))).trans (Cert.KernelIdeal.GenP.W4_main_arg0 m ρ c),
      (h c _ (Cert.KernelIdeal.GenP.mem_uc Cert.KernelIdeal.main_v3 (by decide))).trans (Cert.KernelIdeal.KVal.W4_v3 m ρ c),
      (h c _ (Cert.KernelIdeal.GenP.mem_uc Cert.KernelIdeal.main_v15 (by decide))).trans (Cert.KernelIdeal.KVal.W4_v15 m ρ c),
      (h c _ (Cert.KernelIdeal.GenP.mem_uc Cert.KernelIdeal.main_v16 (by decide))).trans (Cert.KernelIdeal.KVal.W4_v16 m ρ c),
      (h c _ (Cert.KernelIdeal.GenP.mem_uc Cert.KernelIdeal.main_v17 (by decide))).trans (Cert.KernelIdeal.KVal.W4_v17 m ρ c),
      (h c _ (Cert.KernelIdeal.GenP.mem_uc Cert.KernelIdeal.main_v7 (by decide))).trans (Cert.KernelIdeal.KVal.W4_v7 m ρ c),
      (h c _ (Cert.KernelIdeal.GenP.mem_uc Cert.KernelIdeal.main_v18 (by decide))).trans (Cert.KernelIdeal.KVal.W4_v18 m ρ c),
      (h c _ (Cert.KernelIdeal.GenP.mem_uc Cert.KernelIdeal.main_arg0 (by decide))).trans (Cert.KernelIdeal.GenP.W4_main_arg0 m ρ c),
      (h c _ (Cert.KernelIdeal.GenP.mem_uc Cert.KernelIdeal.main_arg1 (by decide))).trans (Cert.KernelIdeal.GenP.W4_main_arg1 m ρ c),
      (h c _ (Cert.KernelIdeal.GenP.mem_uc Cert.KernelIdeal.main_arg2 (by decide))).trans (Cert.KernelIdeal.GenP.W4_main_arg2 m ρ c),
      (h c _ (Cert.KernelIdeal.GenP.mem_uc Cert.KernelIdeal.main_arg3 (by decide))).trans (Cert.KernelIdeal.GenP.W4_main_arg3 m ρ c),
      (h c _ (Cert.KernelIdeal.GenP.mem_uc Cert.KernelIdeal.main_arg4 (by decide))).trans (Cert.KernelIdeal.GenP.W4_main_arg4 m ρ c),
      (h c _ (Cert.KernelIdeal.GenP.mem_uc Cert.KernelIdeal.main_arg5 (by decide))).trans (Cert.KernelIdeal.GenP.W4_main_arg5 m ρ c),
      (h c _ (Cert.KernelIdeal.GenP.mem_uc Cert.KernelIdeal.main_arg6 (by decide))).trans (Cert.KernelIdeal.GenP.W4_main_arg6 m ρ c)⟩
  · -- the reference: its generated run, each scatter read at an index under the sign facts of the precondition
    refine (θ_run Cert.ReferenceIdeal.defs _ _).mono (fun r h c => ?_) (Cert.ReferenceIdeal.Value.run (F := Ideal) m' ρ')
    obtain ⟨s0, s1, s5⟩ := Cert.PreSigns.pre_signs (F := Ideal) _ _ _ _ _ _ _ (hpre c)
    obtain ⟨g0, g1, g2, g3, g4, g5, g6⟩ := hagree c
    obtain ⟨r0, r1, r2, r3, r4, r5, r6, k0, k1, k2, k3, k4, k5, k6⟩ := h c
    refine ⟨r0.trans g0, r1.trans ?_, r2.trans ?_, r3.trans ?_, r4.trans ?_, r5.trans ?_, r6.trans ?_, k0, k1, k2, k3, k4, k5, k6⟩
    · rw [g1]; exact Cert.ReferenceIdeal.RefVal.adv_eq (F := Ideal) _
    · rw [g1, g2]; exact Cert.ReferenceIdeal.RefVal.mask_eq (F := Ideal) _ _ s1
    · rw [g0, g3, g5]; exact Cert.ReferenceIdeal.RefVal.tok_eq (F := Ideal) _ _ _ s5
    · rw [g0, g4, g5]; exact Cert.ReferenceIdeal.RefVal.tok_eq' (F := Ideal) _ _ _ s5
    · rw [g5]; exact Cert.ReferenceIdeal.RefVal.adv_eq' (F := Ideal) _
    · rw [g0, g6]; exact Cert.ReferenceIdeal.RefVal.cnt_eq (F := Ideal) _ _ s0

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
